-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x4096x481 : Shape := ⟨4, ![8, 2, 4096, 481]⟩
abbrev S8x10x4096x256 : Shape := ⟨4, ![8, 10, 4096, 256]⟩
abbrev S_ : Shape := ⟨0, ![]⟩

class Facts : Prop where
  bcast_S_S8x2x4096x481 : S_.BroadcastsInDim S8x2x4096x481 (![] : Fin 0 → Fin S8x2x4096x481.rank)
  reducesTo_S8x2x4096x481_S_d0_1_2_3 : S8x2x4096x481.ReducesTo [0, 1, 2, 3] S_
  h_S_ : 0 < S_.numel
  bcast_S_S8x10x4096x256 : S_.BroadcastsInDim S8x10x4096x256 (![] : Fin 0 → Fin S8x10x4096x256.rank)
  reducesTo_S8x10x4096x256_S_d0_1_2_3 : S8x10x4096x256.ReducesTo [0, 1, 2, 3] S_

variable [Facts]

def fn {F : FTy → Type} [FloatOps F] (main_arg0 : FVec F S8x2x4096x481 .f32) (main_arg1 : FVec F S8x10x4096x256 .f32) : IVec S_ 1 :=
  let main_v0 : FVec F S8x2x4096x481 .f32 := Host.absf main_arg0
  let main_cst : FVec F S_ .f32 := constant S_ .f32 0x7F800000#32
  let main_v1 : FVec F S8x2x4096x481 .f32 := broadcastInDim S8x2x4096x481 ![] bcast_S_S8x2x4096x481 main_cst
  let main_v2 : IVec S8x2x4096x481 1 := cmpf .olt main_v0 main_v1
  let main_c : IVec S_ 1 := constantI S_ 1 1#1
  let main_v3 : IVec S_ 1 := (fun x v => Host.reduce IntOp.andi x v reducesTo_S8x2x4096x481_S_d0_1_2_3 h_S_) main_v2 main_c
  let main_v4 : FVec F S8x10x4096x256 .f32 := Host.absf main_arg1
  let main_cst_0 : FVec F S_ .f32 := constant S_ .f32 0x7F800000#32
  let main_v5 : FVec F S8x10x4096x256 .f32 := broadcastInDim S8x10x4096x256 ![] bcast_S_S8x10x4096x256 main_cst_0
  let main_v6 : IVec S8x10x4096x256 1 := cmpf .olt main_v4 main_v5
  let main_c_1 : IVec S_ 1 := constantI S_ 1 1#1
  let main_v7 : IVec S_ 1 := (fun x v => Host.reduce IntOp.andi x v reducesTo_S8x10x4096x256_S_d0_1_2_3 h_S_) main_v6 main_c_1
  let main_v8 : IVec S_ 1 := andi main_v3 main_v7
  main_v8
-- ==== Kernel.lean ====
abbrev S8x2x4096x481 : Shape := ⟨4, ![8, 2, 4096, 481]⟩
abbrev S8x10x4096x256 : Shape := ⟨4, ![8, 10, 4096, 256]⟩
abbrev S1x2x512x481 : Shape := ⟨4, ![1, 2, 512, 481]⟩
abbrev S1x10x512x256 : Shape := ⟨4, ![1, 10, 512, 256]⟩
abbrev S2x4x256 : Shape := ⟨3, ![2, 4, 256]⟩
abbrev S1x1x512x256 : Shape := ⟨4, ![1, 1, 512, 256]⟩
abbrev S512x256 : Shape := ⟨2, ![512, 256]⟩
abbrev S1x4x256 : Shape := ⟨3, ![1, 4, 256]⟩
abbrev S4x256 : Shape := ⟨2, ![4, 256]⟩
abbrev S516x256 : Shape := ⟨2, ![516, 256]⟩
abbrev S1x1x512x225 : Shape := ⟨4, ![1, 1, 512, 225]⟩
abbrev S512x225 : Shape := ⟨2, ![512, 225]⟩

abbrev nBuf : Space → Nat
  | .hbm => 3
  | .vmem => 7
  | .smem => 0
  | _ => 0

abbrev bufTy : (tb : Table) → Fin (tcTables nBuf tb) → BufTy
  | .hbm, ⟨0, _⟩ => ⟨S8x2x4096x481, .f32⟩
  | .hbm, ⟨1, _⟩ => ⟨S8x10x4096x256, .f32⟩
  | .hbm, ⟨2, _⟩ => ⟨S8x2x4096x481, .f32⟩
  | .local _ .vmem, ⟨0, _⟩ => ⟨S1x2x512x481, .f32⟩
  | .local _ .vmem, ⟨1, _⟩ => ⟨S1x2x512x481, .f32⟩
  | .local _ .vmem, ⟨2, _⟩ => ⟨S1x10x512x256, .f32⟩
  | .local _ .vmem, ⟨3, _⟩ => ⟨S1x10x512x256, .f32⟩
  | .local _ .vmem, ⟨4, _⟩ => ⟨S1x2x512x481, .f32⟩
  | .local _ .vmem, ⟨5, _⟩ => ⟨S1x2x512x481, .f32⟩
  | .local _ .vmem, ⟨6, _⟩ => ⟨S2x4x256, .f32⟩
  | _, _ => ⟨S8x2x4096x481, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x2x512x481 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x512x481 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2x4x256_S2x4x256_0_0_0 : ∀ a, (![0, 0, 0] : Fin 3 → Nat) a + S2x4x256.size a ≤ S2x4x256.size a
  h_S2x4x256 : 0 < S2x4x256.numel
  shapeCasts_S2x4x256_S2x4x256 : S2x4x256.ShapeCasts S2x4x256
  inb_S1x2x512x481_S1x1x512x256_0_0_0_0 : ∀ a, (![0, 0, 0, 0] : Fin 4 → Nat) a + S1x1x512x256.size a ≤ S1x2x512x481.size a
  h_S1x1x512x256 : 0 < S1x1x512x256.numel
  shapeCasts_S1x1x512x256_S512x256 : S1x1x512x256.ShapeCasts S512x256
  inb_S1x2x512x481_S1x1x512x256_0_1_0_0 : ∀ a, (![0, 1, 0, 0] : Fin 4 → Nat) a + S1x1x512x256.size a ≤ S1x2x512x481.size a
  inb_S2x4x256_S1x4x256_0_0_0 : ∀ a, (![0, 0, 0] : Fin 3 → Nat) a + S1x4x256.size a ≤ S2x4x256.size a
  h_S1x4x256 : 0 < S1x4x256.numel
  shapeCasts_S1x4x256_S4x256 : S1x4x256.ShapeCasts S4x256
  concatenates_S4x256_S512x256_S516x256_d0 : Shape.Concatenates [S4x256, S512x256] S516x256 0
  inb_S2x4x256_S1x4x256_1_0_0 : ∀ a, (![1, 0, 0] : Fin 3 → Nat) a + S1x4x256.size a ≤ S2x4x256.size a
  slices_S516x256_o0_0_S512x256 : S516x256.Slices ![0, 0] S512x256
  inb_S1x10x512x256_S1x1x512x256_0_0_0_0 : ∀ a, (![0, 0, 0, 0] : Fin 4 → Nat) a + S1x1x512x256.size a ≤ S1x10x512x256.size a
  inb_S1x10x512x256_S1x1x512x256_0_5_0_0 : ∀ a, (![0, 5, 0, 0] : Fin 4 → Nat) a + S1x1x512x256.size a ≤ S1x10x512x256.size a
  slices_S516x256_o1_0_S512x256 : S516x256.Slices ![1, 0] S512x256
  inb_S1x10x512x256_S1x1x512x256_0_1_0_0 : ∀ a, (![0, 1, 0, 0] : Fin 4 → Nat) a + S1x1x512x256.size a ≤ S1x10x512x256.size a
  inb_S1x10x512x256_S1x1x512x256_0_6_0_0 : ∀ a, (![0, 6, 0, 0] : Fin 4 → Nat) a + S1x1x512x256.size a ≤ S1x10x512x256.size a
  slices_S516x256_o2_0_S512x256 : S516x256.Slices ![2, 0] S512x256
  inb_S1x10x512x256_S1x1x512x256_0_2_0_0 : ∀ a, (![0, 2, 0, 0] : Fin 4 → Nat) a + S1x1x512x256.size a ≤ S1x10x512x256.size a
  inb_S1x10x512x256_S1x1x512x256_0_7_0_0 : ∀ a, (![0, 7, 0, 0] : Fin 4 → Nat) a + S1x1x512x256.size a ≤ S1x10x512x256.size a
  slices_S516x256_o3_0_S512x256 : S516x256.Slices ![3, 0] S512x256
  inb_S1x10x512x256_S1x1x512x256_0_3_0_0 : ∀ a, (![0, 3, 0, 0] : Fin 4 → Nat) a + S1x1x512x256.size a ≤ S1x10x512x256.size a
  inb_S1x10x512x256_S1x1x512x256_0_8_0_0 : ∀ a, (![0, 8, 0, 0] : Fin 4 → Nat) a + S1x1x512x256.size a ≤ S1x10x512x256.size a
  slices_S516x256_o4_0_S512x256 : S516x256.Slices ![4, 0] S512x256
  inb_S1x10x512x256_S1x1x512x256_0_4_0_0 : ∀ a, (![0, 4, 0, 0] : Fin 4 → Nat) a + S1x1x512x256.size a ≤ S1x10x512x256.size a
  inb_S1x10x512x256_S1x1x512x256_0_9_0_0 : ∀ a, (![0, 9, 0, 0] : Fin 4 → Nat) a + S1x1x512x256.size a ≤ S1x10x512x256.size a
  shapeCasts_S512x256_S1x1x512x256 : S512x256.ShapeCasts S1x1x512x256
  inb_S1x2x512x481_S1x1x512x225_0_0_0_256 : ∀ a, (![0, 0, 0, 256] : Fin 4 → Nat) a + S1x1x512x225.size a ≤ S1x2x512x481.size a
  h_S1x1x512x225 : 0 < S1x1x512x225.numel
  shapeCasts_S1x1x512x225_S512x225 : S1x1x512x225.ShapeCasts S512x225
  shapeCasts_S512x225_S1x1x512x225 : S512x225.ShapeCasts S1x1x512x225
  inb_S1x2x512x481_S1x1x512x225_0_1_0_256 : ∀ a, (![0, 1, 0, 256] : Fin 4 → Nat) a + S1x1x512x225.size a ≤ S1x2x512x481.size a
  slices_S512x256_o508_0_S4x256 : S512x256.Slices ![508, 0] S4x256
  shapeCasts_S4x256_S1x4x256 : S4x256.ShapeCasts S1x4x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x512x481.size a ≤ S8x2x4096x481.size a
  hwx0_0 : ∀ i : grid0.Coords, EltTy.bits .f32 = 32 ∨ (Rect.block (s := S8x2x4096x481) S1x2x512x481.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10x512x256.size a ≤ S8x10x4096x256.size a
  hwx0_1 : ∀ i : grid0.Coords, EltTy.bits .f32 = 32 ∨ (Rect.block (s := S8x10x4096x256) S1x10x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x512x481.size a ≤ S8x2x4096x481.size a
  hwx0_2 : ∀ i : grid0.Coords, EltTy.bits .f32 = 32 ∨ (Rect.block (s := S8x2x4096x481) S1x2x512x481.size (cc0_transform_2 i) (hinb0_2 i)).WholeWords (EltTy.packing .f32)

variable [Facts₀]

abbrev win0_0 : Pipeline.Window sig grid0 :=
  Pipeline.Window.ofSpec (Memref.whole main_arg0) S1x2x512x481.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x10x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2x512x481.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2x4096x481 : Shape := ⟨4, ![8, 2, 4096, 481]⟩
abbrev S8x10x4096x256 : Shape := ⟨4, ![8, 10, 4096, 256]⟩
abbrev S8x2x4096x256 : Shape := ⟨4, ![8, 2, 4096, 256]⟩
abbrev S_ : Shape := ⟨0, ![]⟩
abbrev S8x2x4100x256 : Shape := ⟨4, ![8, 2, 4100, 256]⟩
abbrev S8x2x4096x256x1 : Shape := ⟨5, ![8, 2, 4096, 256, 1]⟩
abbrev S8x2x4096x256x5 : Shape := ⟨5, ![8, 2, 4096, 256, 5]⟩
abbrev S8x2x5x4096x256 : Shape := ⟨5, ![8, 2, 5, 4096, 256]⟩
abbrev S8x1x4096x256x5 : Shape := ⟨5, ![8, 1, 4096, 256, 5]⟩
abbrev S8x4096x256x5 : Shape := ⟨4, ![8, 4096, 256, 5]⟩
abbrev S8x4096x256 : Shape := ⟨3, ![8, 4096, 256]⟩
abbrev S8x1x4096x256 : Shape := ⟨4, ![8, 1, 4096, 256]⟩
abbrev S8x2x4096x225 : Shape := ⟨4, ![8, 2, 4096, 225]⟩

abbrev nBuf : Space → Nat
  | .hbm => 42
  | .vmem => 0
  | .smem => 0
  | _ => 0

abbrev bufTy : (tb : Table) → Fin (tcTables nBuf tb) → BufTy
  | .hbm, ⟨0, _⟩ => ⟨S8x2x4096x481, .f32⟩
  | .hbm, ⟨1, _⟩ => ⟨S8x10x4096x256, .f32⟩
  | .hbm, ⟨2, _⟩ => ⟨S8x2x4096x256, .f32⟩
  | .hbm, ⟨3, _⟩ => ⟨S_, .i32⟩
  | .hbm, ⟨4, _⟩ => ⟨S_, .f32⟩
  | .hbm, ⟨5, _⟩ => ⟨S8x2x4100x256, .f32⟩
  | .hbm, ⟨6, _⟩ => ⟨S8x2x4096x256, .f32⟩
  | .hbm, ⟨7, _⟩ => ⟨S8x2x4096x256, .f32⟩
  | .hbm, ⟨8, _⟩ => ⟨S8x2x4096x256, .f32⟩
  | .hbm, ⟨9, _⟩ => ⟨S8x2x4096x256, .f32⟩
  | .hbm, ⟨10, _⟩ => ⟨S8x2x4096x256, .f32⟩
  | .hbm, ⟨11, _⟩ => ⟨S8x2x4096x256x1, .f32⟩
  | .hbm, ⟨12, _⟩ => ⟨S8x2x4096x256x1, .f32⟩
  | .hbm, ⟨13, _⟩ => ⟨S8x2x4096x256x1, .f32⟩
  | .hbm, ⟨14, _⟩ => ⟨S8x2x4096x256x1, .f32⟩
  | .hbm, ⟨15, _⟩ => ⟨S8x2x4096x256x1, .f32⟩
  | .hbm, ⟨16, _⟩ => ⟨S8x2x4096x256x5, .f32⟩
  | .hbm, ⟨17, _⟩ => ⟨S8x2x5x4096x256, .f32⟩
  | .hbm, ⟨18, _⟩ => ⟨S8x2x4096x256x5, .f32⟩
  | .hbm, ⟨19, _⟩ => ⟨S8x1x4096x256x5, .f32⟩
  | .hbm, ⟨20, _⟩ => ⟨S8x4096x256x5, .f32⟩
  | .hbm, ⟨21, _⟩ => ⟨S8x1x4096x256x5, .f32⟩
  | .hbm, ⟨22, _⟩ => ⟨S8x4096x256x5, .f32⟩
  | .hbm, ⟨23, _⟩ => ⟨S8x1x4096x256x5, .f32⟩
  | .hbm, ⟨24, _⟩ => ⟨S8x4096x256x5, .f32⟩
  | .hbm, ⟨25, _⟩ => ⟨S8x1x4096x256x5, .f32⟩
  | .hbm, ⟨26, _⟩ => ⟨S8x4096x256x5, .f32⟩
  | .hbm, ⟨27, _⟩ => ⟨S8x4096x256x5, .f32⟩
  | .hbm, ⟨28, _⟩ => ⟨S8x4096x256x5, .f32⟩
  | .hbm, ⟨29, _⟩ => ⟨S8x4096x256x5, .f32⟩
  | .hbm, ⟨30, _⟩ => ⟨S_, .f32⟩
  | .hbm, ⟨31, _⟩ => ⟨S8x4096x256, .f32⟩
  | .hbm, ⟨32, _⟩ => ⟨S8x4096x256x5, .f32⟩
  | .hbm, ⟨33, _⟩ => ⟨S8x4096x256x5, .f32⟩
  | .hbm, ⟨34, _⟩ => ⟨S8x4096x256x5, .f32⟩
  | .hbm, ⟨35, _⟩ => ⟨S_, .f32⟩
  | .hbm, ⟨36, _⟩ => ⟨S8x4096x256, .f32⟩
  | .hbm, ⟨37, _⟩ => ⟨S8x1x4096x256, .f32⟩
  | .hbm, ⟨38, _⟩ => ⟨S8x1x4096x256, .f32⟩
  | .hbm, ⟨39, _⟩ => ⟨S8x2x4096x256, .f32⟩
  | .hbm, ⟨40, _⟩ => ⟨S8x2x4096x225, .f32⟩
  | .hbm, ⟨41, _⟩ => ⟨S8x2x4096x481, .f32⟩
  | _, _ => ⟨S8x2x4096x481, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]

class Facts₀ : Prop where
  slices_S8x2x4096x481_S8x2x4096x256_0_0_0_0 : S8x2x4096x481.Slices ![0, 0, 0, 0] S8x2x4096x256
  pads_S8x2x4096x256_S8x2x4100x256_000_000_400_000 : S8x2x4096x256.Pads (![0, 0, 4, 0] : Fin 4 → Nat) ![0, 0, 0, 0] ![0, 0, 0, 0] S8x2x4100x256
  h_S_ : 0 < S_.numel
  slices_S8x2x4100x256_S8x2x4096x256_0_0_0_0 : S8x2x4100x256.Slices ![0, 0, 0, 0] S8x2x4096x256
  slices_S8x2x4100x256_S8x2x4096x256_0_0_1_0 : S8x2x4100x256.Slices ![0, 0, 1, 0] S8x2x4096x256
  slices_S8x2x4100x256_S8x2x4096x256_0_0_2_0 : S8x2x4100x256.Slices ![0, 0, 2, 0] S8x2x4096x256
  slices_S8x2x4100x256_S8x2x4096x256_0_0_3_0 : S8x2x4100x256.Slices ![0, 0, 3, 0] S8x2x4096x256
  slices_S8x2x4100x256_S8x2x4096x256_0_0_4_0 : S8x2x4100x256.Slices ![0, 0, 4, 0] S8x2x4096x256
  bcast_S8x2x4096x256_S8x2x4096x256x1_0_1_2_3 : S8x2x4096x256.BroadcastsInDim S8x2x4096x256x1 (![0, 1, 2, 3] : Fin 4 → Fin S8x2x4096x256x1.rank)
  concatenates_S8x2x4096x256x1_S8x2x4096x256x1_S8x2x4096x256x1_S8x2x4096x256x1_S8x2x4096x256x1_S8x2x4096x256x5_d4 : Shape.Concatenates [S8x2x4096x256x1, S8x2x4096x256x1, S8x2x4096x256x1, S8x2x4096x256x1, S8x2x4096x256x1] S8x2x4096x256x5 4
  shapeCasts_S8x10x4096x256_S8x2x5x4096x256 : S8x10x4096x256.ShapeCasts S8x2x5x4096x256
  transposes_S8x2x5x4096x256_S8x2x4096x256x5_0_1_3_4_2 : S8x2x5x4096x256.Transposes [0, 1, 3, 4, 2] S8x2x4096x256x5
  slices_S8x2x4096x256x5_S8x1x4096x256x5_0_0_0_0_0 : S8x2x4096x256x5.Slices ![0, 0, 0, 0, 0] S8x1x4096x256x5
  shapeCasts_S8x1x4096x256x5_S8x4096x256x5 : S8x1x4096x256x5.ShapeCasts S8x4096x256x5
  slices_S8x2x4096x256x5_S8x1x4096x256x5_0_1_0_0_0 : S8x2x4096x256x5.Slices ![0, 1, 0, 0, 0] S8x1x4096x256x5
  reducesTo_S8x4096x256x5_S8x4096x256_d3 : S8x4096x256x5.ReducesTo [3] S8x4096x256
  bcast_S8x4096x256_S8x1x4096x256_0_2_3 : S8x4096x256.BroadcastsInDim S8x1x4096x256 (![0, 2, 3] : Fin 3 → Fin S8x1x4096x256.rank)
  concatenates_S8x1x4096x256_S8x1x4096x256_S8x2x4096x256_d1 : Shape.Concatenates [S8x1x4096x256, S8x1x4096x256] S8x2x4096x256 1
  slices_S8x2x4096x481_S8x2x4096x225_0_0_0_256 : S8x2x4096x481.Slices ![0, 0, 0, 256] S8x2x4096x225
  concatenates_S8x2x4096x256_S8x2x4096x225_S8x2x4096x481_d3 : Shape.Concatenates [S8x2x4096x256, S8x2x4096x225] S8x2x4096x481 3

variable [Facts₀]

class Facts : Prop extends Facts₀ where

variable [Facts]
-- ==== Proof.TapSum.lean ====
/-
  Five filter taps accumulated one after the other are their sum.

  The kernel accumulates, tap by tap, `acc ← acc + a k - b k` (real part) and `acc ← acc + a k + b k`
  (imaginary part) from zero; the reference forms the five terms `a k - b k` (resp. `a k + b k`) and sums them
  from zero. On the extended reals addition is commutative and associative and a difference is the sum with
  the negation, so the two agree whatever the terms are (no finiteness is needed).
-/
import Mathlib.Data.EReal.Operations
import Mathlib.Algebra.BigOperators.Fin

namespace Cert.TapSum

/-- The real part: `((((0 + a₀ - b₀) + a₁ - b₁) + …) + a₄ - b₄ = 0 + ∑ k, (a k - b k)`. -/
theorem sub_chain (a b : Fin 5 → EReal) :
    (0 : EReal) + a 0 - b 0 + a 1 - b 1 + a 2 - b 2 + a 3 - b 3 + a 4 - b 4
      = 0 + ∑ k : Fin 5, (a k - b k) := by
  simp only [Fin.sum_univ_five, sub_eq_add_neg, add_assoc]

/-- The imaginary part: `((((0 + a₀ + b₀) + a₁ + b₁) + …) + a₄ + b₄ = 0 + ∑ k, (a k + b k)`. -/
theorem add_chain (a b : Fin 5 → EReal) :
    (0 : EReal) + a 0 + b 0 + a 1 + b 1 + a 2 + b 2 + a 3 + b 3 + a 4 + b 4
      = 0 + ∑ k : Fin 5, (a k + b k) := by
  simp only [Fin.sum_univ_five, add_assoc]

end Cert.TapSum
-- ==== Proof.FilterSpec.lean ====
/-
  The causal five-tap complex filter, as ONE function of the two argument arrays.

  `spec` is [8, 2, 4096, 481]: batch, real/imaginary channel, time, frequency bin. `coefs` is [8, 10, 4096, 256]:
  batch, ten coefficient planes (real taps 0..4, imaginary taps 5..9), time, the first 256 bins. The result keeps
  the last 225 bins of `spec` and, on the first 256 bins, is the complex product-sum over the five taps
      out[b, ·, τ, f] = ∑ₖ (pr + i·pi)[b, τ + k - 4, f] · (cr + i·ci)[b, k, τ, f],
  the signal read as zero before time 0 (`tap`). The sum is written as the host writes it: the initial zero plus
  the sum over the five taps.

  A time tile of 512 rows, with the four rows before it (`stacked`: four history rows on top of the tile), gives the
  same numbers tap by tap (`blockOut`, an accumulation in tap order); `blockOut_eq` says so for a tile whose
  history rows are the four rows of the array before it, or zero for the first tile of a batch.
-/
import Idealize.ShloMosaic.PureOps.Ideal
import Idealize.ShloMosaic.Lib.ValueIdx
import proofs.«139439_j40218073759990_1_alg».proof.Proof.TapSum

noncomputable section

open scoped BigOperators

namespace Cert.Filter

open Idealize.ShloMosaic Idealize.ShloMosaic.ValueIdx

/-- The shape of `spec` and of the result. -/
abbrev SpecS : Shape := ⟨4, ![8, 2, 4096, 481]⟩
/-- The shape of `coefs`. -/
abbrev CoefS : Shape := ⟨4, ![8, 10, 4096, 256]⟩
/-- One time tile of `spec` (and of the result): [1, 2, 512, 481]. -/
abbrev SpecT : Shape := ⟨4, ![1, 2, 512, 481]⟩
/-- One time tile of `coefs`: [1, 10, 512, 256]. -/
abbrev CoefT : Shape := ⟨4, ![1, 10, 512, 256]⟩
/-- The four history rows of both channels: [2, 4, 256]. -/
abbrev HistS : Shape := ⟨3, ![2, 4, 256]⟩

/-! ## The whole-array function -/

/-- Channel `c` of batch `b` at time `τ + k - 4` and bin `f < 256`: the signal delayed for tap `k`, zero before time 0. -/
def tap (x : SpecS.Idx → EReal) (b : Fin 8) (c : Fin 2) (τ : Fin 4096) (f : Fin 256) (k : Fin 5) : EReal :=
  if h : 4 ≤ τ.val + k.val then
    x (ix4 b c ⟨τ.val + k.val - 4, by have := τ.isLt; have := k.isLt; omega⟩ ⟨f.val, by have := f.isLt; omega⟩)
  else 0

/-- Tap `k`'s real coefficient (plane `k`). -/
def coefRe (w : CoefS.Idx → EReal) (b : Fin 8) (τ : Fin 4096) (f : Fin 256) (k : Fin 5) : EReal :=
  w (ix4 b ⟨k.val, by have := k.isLt; omega⟩ τ f)

/-- Tap `k`'s imaginary coefficient (plane `5 + k`). -/
def coefIm (w : CoefS.Idx → EReal) (b : Fin 8) (τ : Fin 4096) (f : Fin 256) (k : Fin 5) : EReal :=
  w (ix4 b ⟨5 + k.val, by have := k.isLt; omega⟩ τ f)

/-- The real part of the filtered sample. -/
def realPart (x : SpecS.Idx → EReal) (w : CoefS.Idx → EReal) (b : Fin 8) (τ : Fin 4096) (f : Fin 256) : EReal :=
  0 + ∑ k : Fin 5, (tap x b 0 τ f k * coefRe w b τ f k - tap x b 1 τ f k * coefIm w b τ f k)

/-- The imaginary part of the filtered sample. -/
def imagPart (x : SpecS.Idx → EReal) (w : CoefS.Idx → EReal) (b : Fin 8) (τ : Fin 4096) (f : Fin 256) : EReal :=
  0 + ∑ k : Fin 5, (tap x b 1 τ f k * coefRe w b τ f k + tap x b 0 τ f k * coefIm w b τ f k)

/-- The result at batch `b`, channel `c`, time `τ`, bin `f`: the filtered sample on the first 256 bins (channel 0 the
    real part, channel 1 the imaginary part), `spec` itself on the other 225. -/
def filteredAt (x : SpecS.Idx → EReal) (w : CoefS.Idx → EReal) (b : Fin 8) (c : Fin 2) (τ : Fin 4096) (f : Fin 481) : EReal :=
  if h : f.val < 256 then
    if c.val = 0 then realPart x w b τ ⟨f.val, h⟩ else imagPart x w b τ ⟨f.val, h⟩
  else x (ix4 b c τ f)

/-- THE RESULT, as an array. -/
def filtered (x : SpecS.Idx → EReal) (w : CoefS.Idx → EReal) : SpecS.Idx → EReal := fun i =>
  filteredAt x w ⟨(i 0).val, (i 0).isLt⟩ ⟨(i 1).val, (i 1).isLt⟩ ⟨(i 2).val, (i 2).isLt⟩ ⟨(i 3).val, (i 3).isLt⟩

theorem filtered_apply (x : SpecS.Idx → EReal) (w : CoefS.Idx → EReal) (b : Fin 8) (c : Fin 2) (τ : Fin 4096) (f : Fin 481) :
    filtered x w (ix4 b c τ f) = filteredAt x w b c τ f := rfl

/-! ## One time tile -/

/-- Row `s` of channel `c`'s stack of 516 rows: the four history rows, then the tile's 512. -/
def stacked (x0 : SpecT.Idx → EReal) (h : HistS.Idx → EReal) (c : Fin 2) (s : Fin 516) (f : Fin 256) : EReal :=
  if hs : s.val < 4 then h (ix3 c ⟨s.val, hs⟩ f)
  else x0 (ix4 0 c ⟨s.val - 4, by have := s.isLt; omega⟩ ⟨f.val, by have := f.isLt; omega⟩)

/-- Tap `k`'s stack row for tile row `r`: row `r + k`. -/
def stackedAt (x0 : SpecT.Idx → EReal) (h : HistS.Idx → EReal) (c : Fin 2) (r : Fin 512) (f : Fin 256) (k : Fin 5) : EReal :=
  stacked x0 h c ⟨r.val + k.val, by have := r.isLt; have := k.isLt; omega⟩ f

/-- Tap `k`'s real coefficient in the tile. -/
def tileRe (x1 : CoefT.Idx → EReal) (r : Fin 512) (f : Fin 256) (k : Fin 5) : EReal :=
  x1 (ix4 0 ⟨k.val, by have := k.isLt; omega⟩ r f)

/-- Tap `k`'s imaginary coefficient in the tile. -/
def tileIm (x1 : CoefT.Idx → EReal) (r : Fin 512) (f : Fin 256) (k : Fin 5) : EReal :=
  x1 (ix4 0 ⟨5 + k.val, by have := k.isLt; omega⟩ r f)

/-- The tile's real part at row `r`, bin `f`, accumulated tap by tap from zero:
    `acc ← acc + pr·cr - pi·ci`. -/
def blockRe (x0 : SpecT.Idx → EReal) (x1 : CoefT.Idx → EReal) (h : HistS.Idx → EReal) (r : Fin 512) (f : Fin 256) : EReal :=
  let a : Fin 5 → EReal := fun k => stackedAt x0 h 0 r f k * tileRe x1 r f k
  let b : Fin 5 → EReal := fun k => stackedAt x0 h 1 r f k * tileIm x1 r f k
  0 + a 0 - b 0 + a 1 - b 1 + a 2 - b 2 + a 3 - b 3 + a 4 - b 4

/-- The tile's imaginary part, accumulated tap by tap from zero: `acc ← acc + pi·cr + pr·ci`. -/
def blockIm (x0 : SpecT.Idx → EReal) (x1 : CoefT.Idx → EReal) (h : HistS.Idx → EReal) (r : Fin 512) (f : Fin 256) : EReal :=
  let a : Fin 5 → EReal := fun k => stackedAt x0 h 1 r f k * tileRe x1 r f k
  let b : Fin 5 → EReal := fun k => stackedAt x0 h 0 r f k * tileIm x1 r f k
  0 + a 0 + b 0 + a 1 + b 1 + a 2 + b 2 + a 3 + b 3 + a 4 + b 4

/-- What one time tile's result holds at channel `c`, row `r`, bin `f`: on the first 256 bins the accumulated parts, on
    the rest the input tile. -/
def blockOutAt (x0 : SpecT.Idx → EReal) (x1 : CoefT.Idx → EReal) (h : HistS.Idx → EReal) (c : Fin 2) (r : Fin 512) (f : Fin 481) : EReal :=
  if hf : f.val < 256 then
    if c.val = 0 then blockRe x0 x1 h r ⟨f.val, hf⟩ else blockIm x0 x1 h r ⟨f.val, hf⟩
  else x0 (ix4 0 c r f)

/-- One time tile's result, as a block. -/
def blockOut (x0 : SpecT.Idx → EReal) (x1 : CoefT.Idx → EReal) (h : HistS.Idx → EReal) : SpecT.Idx → EReal := fun y =>
  blockOutAt x0 x1 h ⟨(y 1).val, (y 1).isLt⟩ ⟨(y 2).val, (y 2).isLt⟩ ⟨(y 3).val, (y 3).isLt⟩

theorem blockOut_apply (x0 : SpecT.Idx → EReal) (x1 : CoefT.Idx → EReal) (h : HistS.Idx → EReal) (c : Fin 2) (r : Fin 512) (f : Fin 481) :
    blockOut x0 x1 h (ix4 0 c r f) = blockOutAt x0 x1 h c r f := rfl

/-- The four rows a tile hands to the next one: its last four, on the first 256 bins. -/
def lastRows (x0 : SpecT.Idx → EReal) : HistS.Idx → EReal := fun j =>
  x0 (ix4 0 ⟨(j 0).val, (j 0).isLt⟩
    ⟨508 + (j 1).val, by have h1 : (j 1).val < 4 := (j 1).isLt; omega⟩ ⟨(j 2).val, by have h2 : (j 2).val < 256 := (j 2).isLt; omega⟩)

theorem lastRows_apply (x0 : SpecT.Idx → EReal) (c : Fin 2) (s : Fin 4) (f : Fin 256) :
    lastRows x0 (ix3 c s f) = x0 (ix4 0 c ⟨508 + s.val, by have := s.isLt; omega⟩ ⟨f.val, by have := f.isLt; omega⟩) := rfl

/-- The zero history of a batch's first tile. -/
def zeroRows : HistS.Idx → EReal := fun _ => 0

/-! ## A tile of the arrays computes the arrays' result -/

/-- Time tile `tt` of batch `b`: if the tile's blocks are the arrays' rows `512·tt ..` and its history rows are the four
    rows before them (zero for `tt = 0`), the tile's result is the whole-array result at those rows. -/
theorem blockOut_eq (X : SpecS.Idx → EReal) (W : CoefS.Idx → EReal) (b : Fin 8) (tt : Fin 8)
    (x0 : SpecT.Idx → EReal) (x1 : CoefT.Idx → EReal) (h : HistS.Idx → EReal)
    (hx0 : ∀ (c : Fin 2) (r : Fin 512) (f : Fin 481),
      x0 (ix4 0 c r f) = X (ix4 b c ⟨512 * tt.val + r.val, by have := tt.isLt; have := r.isLt; omega⟩ f))
    (hx1 : ∀ (j : Fin 10) (r : Fin 512) (f : Fin 256),
      x1 (ix4 0 j r f) = W (ix4 b j ⟨512 * tt.val + r.val, by have := tt.isLt; have := r.isLt; omega⟩ f))
    (hh : ∀ (c : Fin 2) (s : Fin 4) (f : Fin 256),
      h (ix3 c s f) = if h0 : tt.val = 0 then 0
        else X (ix4 b c ⟨512 * tt.val + s.val - 4, by have := tt.isLt; have := s.isLt; omega⟩ ⟨f.val, by have := f.isLt; omega⟩))
    (c : Fin 2) (r : Fin 512) (f : Fin 481) :
    blockOut x0 x1 h (ix4 0 c r f)
      = filtered X W (ix4 b c ⟨512 * tt.val + r.val, by have := tt.isLt; have := r.isLt; omega⟩ f) := by
  have htap : ∀ (c' : Fin 2) (g : Fin 256) (k : Fin 5),
      stackedAt x0 h c' r g k = tap X b c' ⟨512 * tt.val + r.val, by have := tt.isLt; have := r.isLt; omega⟩ g k := by
    intro c' g k
    unfold stackedAt stacked tap
    have hr := r.isLt; have hk := k.isLt; have ht := tt.isLt
    by_cases hs : r.val + k.val < 4
    · rw [dif_pos hs, hh]
      by_cases h0 : tt.val = 0
      · rw [dif_pos h0, dif_neg (by dsimp only; omega)]
      · rw [dif_neg h0, dif_pos (by dsimp only; omega)]
        refine congrArg X (congrArg (fun s => ix4 b c' s _) (Fin.ext ?_))
        dsimp only; omega
    · rw [dif_neg hs, dif_pos (by dsimp only; omega), hx0]
      refine congrArg X (congrArg (fun s => ix4 b c' s _) (Fin.ext ?_))
      dsimp only; omega
  have hre : ∀ (g : Fin 256) (k : Fin 5),
      tileRe x1 r g k = coefRe W b ⟨512 * tt.val + r.val, by have := tt.isLt; have := r.isLt; omega⟩ g k := fun g k => by
    unfold tileRe coefRe; rw [hx1]
  have him : ∀ (g : Fin 256) (k : Fin 5),
      tileIm x1 r g k = coefIm W b ⟨512 * tt.val + r.val, by have := tt.isLt; have := r.isLt; omega⟩ g k := fun g k => by
    unfold tileIm coefIm; rw [hx1]
  rw [blockOut_apply, filtered_apply]
  unfold blockOutAt filteredAt
  by_cases hf : f.val < 256
  · rw [dif_pos hf, dif_pos hf]
    by_cases hc : c.val = 0
    · rw [if_pos hc, if_pos hc]
      unfold blockRe realPart
      simp only [htap, hre, him]
      exact Cert.TapSum.sub_chain
        (fun k => tap X b 0 (⟨512 * tt.val + r.val, by have := tt.isLt; have := r.isLt; omega⟩ : Fin 4096) ⟨f.val, hf⟩ k * coefRe W b (⟨512 * tt.val + r.val, by have := tt.isLt; have := r.isLt; omega⟩ : Fin 4096) ⟨f.val, hf⟩ k)
        (fun k => tap X b 1 (⟨512 * tt.val + r.val, by have := tt.isLt; have := r.isLt; omega⟩ : Fin 4096) ⟨f.val, hf⟩ k * coefIm W b (⟨512 * tt.val + r.val, by have := tt.isLt; have := r.isLt; omega⟩ : Fin 4096) ⟨f.val, hf⟩ k)
    · rw [if_neg hc, if_neg hc]
      unfold blockIm imagPart
      simp only [htap, hre, him]
      exact Cert.TapSum.add_chain
        (fun k => tap X b 1 (⟨512 * tt.val + r.val, by have := tt.isLt; have := r.isLt; omega⟩ : Fin 4096) ⟨f.val, hf⟩ k * coefRe W b (⟨512 * tt.val + r.val, by have := tt.isLt; have := r.isLt; omega⟩ : Fin 4096) ⟨f.val, hf⟩ k)
        (fun k => tap X b 0 (⟨512 * tt.val + r.val, by have := tt.isLt; have := r.isLt; omega⟩ : Fin 4096) ⟨f.val, hf⟩ k * coefIm W b (⟨512 * tt.val + r.val, by have := tt.isLt; have := r.isLt; omega⟩ : Fin 4096) ⟨f.val, hf⟩ k)
  · rw [dif_neg hf, dif_neg hf]
    exact hx0 c r f

end Cert.Filter

end
-- ==== Proof.RefFiltered.lean ====
/-
  The reference program computes the causal five-tap complex filter.

  Stage by stage. The first 256 bins of the signal get four zero rows in front of time 0: row s of the padded array is
  zero for s < 4 and row s - 4 of the signal from there on (padded_apply). Five slices of the padded array, at row
  offsets 0..4, are stacked on a new last axis: entry k of the stack at time t is row t + k of the padded array
  (stack_apply), which is the signal delayed for tap k, zero before time 0 (tap_apply). The ten coefficient planes are
  regrouped so that plane 5 p + k sits at (b, p, t, f, k) (planes_index). The two product-sums over the tap axis start
  from a zero initial value (re_apply, im_apply). The two parts are joined on the channel axis (parts_re, parts_im) and
  then, on the bin axis, with the last 225 bins of the signal (low_bins, high_bins). Together: result_eq.
-/
import proofs.«139439_j40218073759990_1_alg».proof.Proof.RefRead
import proofs.«139439_j40218073759990_1_alg».proof.Proof.FilterSpec
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.Filter

/-! ## The signal with four zero rows in front -/

/-- Row s of the padded array: zero on the first four rows, row s - 4 of the signal's first 256 bins after. -/
theorem padded_apply (X : SpecS.Idx → EReal) (b : Fin 8) (c : Fin 2) (s : Fin 4100) (f : Fin 256) :
    val_main_v1 (F := Ideal) X (ix4 b c s f)
      = if h : 4 ≤ s.val then
          X (ix4 b c ⟨s.val - 4, by have := s.isLt; omega⟩ ⟨f.val, by have := f.isLt; omega⟩)
        else 0 := by
  unfold val_main_v1
  by_cases h : 4 ≤ s.val
  · rw [dif_pos h]
    refine (pad_apply_of_inside _ _ _ (val_main_v0 (F := Ideal) X) (val_main_call0_v0 (F := Ideal))
      pads_S8x2x4096x256_S8x2x4100x256_000_000_400_000 h_S_ (ix4 b c s f)
      (ix4 b c (⟨s.val - 4, by have := s.isLt; omega⟩ : Fin 4096) f) (fun a => match a with
        | ⟨0, _⟩ => by show b.val = 0 + b.val * (0 + 1); omega
        | ⟨1, _⟩ => by show c.val = 0 + c.val * (0 + 1); omega
        | ⟨2, _⟩ => by show s.val = 4 + (s.val - 4) * (0 + 1); omega
        | ⟨3, _⟩ => by show f.val = 0 + f.val * (0 + 1); omega)).trans ?_
    rw [val_main_v0_apply]
    refine congrArg X (funext fun a => ?_)
    match a with
    | ⟨0, _⟩ => rfl
    | ⟨1, _⟩ => rfl
    | ⟨2, _⟩ => rfl
    | ⟨3, _⟩ => rfl
  · rw [dif_neg h]
    refine (pad_apply_of_not_inside _ _ _ (val_main_v0 (F := Ideal) X) (val_main_call0_v0 (F := Ideal))
      pads_S8x2x4096x256_S8x2x4100x256_000_000_400_000 h_S_ (ix4 b c s f) (2 : Fin 4)
      (fun hc => h hc.1)).trans ?_
    show ((((0#32 : BitVec 32).toInt : ℤ) : ℝ) : EReal) = 0
    simp

/-! ## The five shifted slices, stacked -/

/-- Off the stacking axis, an index of the stack and the index of a piece with the same coordinates agree. -/
theorem stack_off_axis (b : Fin 8) (c : Fin 2) (τ : Fin 4096) (f : Fin 256) (k : Fin 5)
    (hr : S8x2x4096x256x1.rank = S8x2x4096x256x5.rank) (a : Fin S8x2x4096x256x1.rank)
    (ha : a.cast hr ≠ (4 : Fin S8x2x4096x256x5.rank)) :
    ((ix5 b c τ f (0 : Fin 1)) a).val = ((ix5 b c τ f k) (a.cast hr)).val :=
  match a, ha with
  | ⟨0, _⟩, _ => rfl
  | ⟨1, _⟩, _ => rfl
  | ⟨2, _⟩, _ => rfl
  | ⟨3, _⟩, _ => rfl
  | ⟨4, _⟩, ha => (ha rfl).elim

/-- Entry k of the stack at time τ is row τ + k of the padded array. -/
theorem stack_apply (X : SpecS.Idx → EReal) (b : Fin 8) (c : Fin 2) (τ : Fin 4096) (f : Fin 256) (k : Fin 5) :
    val_main_v12 (F := Ideal) X (ix5 b c τ f k)
      = val_main_v1 (F := Ideal) X (ix4 b c ⟨τ.val + k.val, by have := τ.isLt; have := k.isLt; omega⟩ f) := by
  unfold val_main_v12
  match k with
  | ⟨0, hk⟩ =>
    refine (concatenate_apply_piece (t := S8x2x4096x256x5) (4 : Fin 5) _ ?_
      (ix5 b c τ f ⟨0, hk⟩) 0 ?_ S8x2x4096x256x1 (val_main_v7 (F := Ideal) X) ?_ rfl 0 ?_
      (ix5 b c τ f (0 : Fin 1)) (stack_off_axis b c τ f ⟨0, hk⟩ rfl) rfl).trans ?_
    · show 0 < 5; decide
    · rfl
    · rfl
    rw [val_main_v7_apply, val_main_v2_apply]
    refine congrArg (val_main_v1 (F := Ideal) X) (funext fun a => ?_)
    match a with
    | ⟨0, _⟩ => rfl
    | ⟨1, _⟩ => rfl
    | ⟨2, _⟩ => exact Fin.ext (by show τ.val = τ.val + 0; omega)
    | ⟨3, _⟩ => rfl
  | ⟨1, hk⟩ =>
    refine (concatenate_apply_piece (t := S8x2x4096x256x5) (4 : Fin 5) _ ?_
      (ix5 b c τ f ⟨1, hk⟩) 1 ?_ S8x2x4096x256x1 (val_main_v8 (F := Ideal) X) ?_ rfl 1 ?_
      (ix5 b c τ f (0 : Fin 1)) (stack_off_axis b c τ f ⟨1, hk⟩ rfl) rfl).trans ?_
    · show 1 < 5; decide
    · rfl
    · rfl
    rw [val_main_v8_apply, val_main_v3_apply]
    refine congrArg (val_main_v1 (F := Ideal) X) (funext fun a => ?_)
    match a with
    | ⟨0, _⟩ => rfl
    | ⟨1, _⟩ => rfl
    | ⟨2, _⟩ => exact Fin.ext (by show 1 + τ.val = τ.val + 1; omega)
    | ⟨3, _⟩ => rfl
  | ⟨2, hk⟩ =>
    refine (concatenate_apply_piece (t := S8x2x4096x256x5) (4 : Fin 5) _ ?_
      (ix5 b c τ f ⟨2, hk⟩) 2 ?_ S8x2x4096x256x1 (val_main_v9 (F := Ideal) X) ?_ rfl 2 ?_
      (ix5 b c τ f (0 : Fin 1)) (stack_off_axis b c τ f ⟨2, hk⟩ rfl) rfl).trans ?_
    · show 2 < 5; decide
    · rfl
    · rfl
    rw [val_main_v9_apply, val_main_v4_apply]
    refine congrArg (val_main_v1 (F := Ideal) X) (funext fun a => ?_)
    match a with
    | ⟨0, _⟩ => rfl
    | ⟨1, _⟩ => rfl
    | ⟨2, _⟩ => exact Fin.ext (by show 2 + τ.val = τ.val + 2; omega)
    | ⟨3, _⟩ => rfl
  | ⟨3, hk⟩ =>
    refine (concatenate_apply_piece (t := S8x2x4096x256x5) (4 : Fin 5) _ ?_
      (ix5 b c τ f ⟨3, hk⟩) 3 ?_ S8x2x4096x256x1 (val_main_v10 (F := Ideal) X) ?_ rfl 3 ?_
      (ix5 b c τ f (0 : Fin 1)) (stack_off_axis b c τ f ⟨3, hk⟩ rfl) rfl).trans ?_
    · show 3 < 5; decide
    · rfl
    · rfl
    rw [val_main_v10_apply, val_main_v5_apply]
    refine congrArg (val_main_v1 (F := Ideal) X) (funext fun a => ?_)
    match a with
    | ⟨0, _⟩ => rfl
    | ⟨1, _⟩ => rfl
    | ⟨2, _⟩ => exact Fin.ext (by show 3 + τ.val = τ.val + 3; omega)
    | ⟨3, _⟩ => rfl
  | ⟨4, hk⟩ =>
    refine (concatenate_apply_piece (t := S8x2x4096x256x5) (4 : Fin 5) _ ?_
      (ix5 b c τ f ⟨4, hk⟩) 4 ?_ S8x2x4096x256x1 (val_main_v11 (F := Ideal) X) ?_ rfl 4 ?_
      (ix5 b c τ f (0 : Fin 1)) (stack_off_axis b c τ f ⟨4, hk⟩ rfl) rfl).trans ?_
    · show 4 < 5; decide
    · rfl
    · rfl
    rw [val_main_v11_apply, val_main_v6_apply]
    refine congrArg (val_main_v1 (F := Ideal) X) (funext fun a => ?_)
    match a with
    | ⟨0, _⟩ => rfl
    | ⟨1, _⟩ => rfl
    | ⟨2, _⟩ => exact Fin.ext (by show 4 + τ.val = τ.val + 4; omega)
    | ⟨3, _⟩ => rfl

/-- The stack at (b, c, τ, f, k) is the signal delayed for tap k, zero before time 0. -/
theorem tap_apply (X : SpecS.Idx → EReal) (b : Fin 8) (c : Fin 2) (τ : Fin 4096) (f : Fin 256) (k : Fin 5) :
    val_main_v12 (F := Ideal) X (ix5 b c τ f k) = tap X b c τ f k := by
  rw [stack_apply, padded_apply]
  rfl

/-! ## The stack and the coefficient planes, channel by channel -/

/-- Dropping the unit channel axis: (b, τ, f, k) of the four-axis array is (b, 0, τ, f, k) of the five-axis one. -/
theorem reshape_index (b : Fin 8) (τ : Fin 4096) (f : Fin 256) (k : Fin 5) :
    idx_main_v16 (ix4 b τ f k) = ix5 b (0 : Fin 1) τ f k := by
  have hb := b.isLt; have hτ := τ.isLt; have hf := f.isLt; have hk := k.isLt
  funext a
  match a with
  | ⟨0, _⟩ =>
    exact Fin.ext (by show (((b.val * 4096 + τ.val) * 256 + f.val) * 5 + k.val) / 5242880 = b.val; omega)
  | ⟨1, _⟩ => rfl
  | ⟨2, _⟩ =>
    exact Fin.ext (by show (((b.val * 4096 + τ.val) * 256 + f.val) * 5 + k.val) / 1280 % 4096 = τ.val; omega)
  | ⟨3, _⟩ =>
    exact Fin.ext (by show (((b.val * 4096 + τ.val) * 256 + f.val) * 5 + k.val) / 5 % 256 = f.val; omega)
  | ⟨4, _⟩ =>
    exact Fin.ext (by show (((b.val * 4096 + τ.val) * 256 + f.val) * 5 + k.val) % 5 = k.val; omega)

theorem reshape_index18 (b : Fin 8) (τ : Fin 4096) (f : Fin 256) (k : Fin 5) :
    idx_main_v18 (ix4 b τ f k) = ix5 b (0 : Fin 1) τ f k := reshape_index b τ f k

theorem reshape_index20 (b : Fin 8) (τ : Fin 4096) (f : Fin 256) (k : Fin 5) :
    idx_main_v20 (ix4 b τ f k) = ix5 b (0 : Fin 1) τ f k := reshape_index b τ f k

theorem reshape_index22 (b : Fin 8) (τ : Fin 4096) (f : Fin 256) (k : Fin 5) :
    idx_main_v22 (ix4 b τ f k) = ix5 b (0 : Fin 1) τ f k := reshape_index b τ f k

/-- The slice of channel 0. -/
theorem chan0_index (b : Fin 8) (τ : Fin 4096) (f : Fin 256) (k : Fin 5) :
    idx_main_v15 (ix5 b (0 : Fin 1) τ f k) = ix5 b (0 : Fin 2) τ f k := by
  funext a
  match a with
  | ⟨0, _⟩ => rfl | ⟨1, _⟩ => rfl | ⟨2, _⟩ => rfl | ⟨3, _⟩ => rfl | ⟨4, _⟩ => rfl

/-- The slice of channel 1. -/
theorem chan1_index (b : Fin 8) (τ : Fin 4096) (f : Fin 256) (k : Fin 5) :
    idx_main_v17 (ix5 b (0 : Fin 1) τ f k) = ix5 b (1 : Fin 2) τ f k := by
  funext a
  match a with
  | ⟨0, _⟩ => rfl | ⟨1, _⟩ => rfl | ⟨2, _⟩ => rfl | ⟨3, _⟩ => rfl | ⟨4, _⟩ => rfl

theorem chan0_index19 (b : Fin 8) (τ : Fin 4096) (f : Fin 256) (k : Fin 5) :
    idx_main_v19 (ix5 b (0 : Fin 1) τ f k) = ix5 b (0 : Fin 2) τ f k := chan0_index b τ f k

theorem chan1_index21 (b : Fin 8) (τ : Fin 4096) (f : Fin 256) (k : Fin 5) :
    idx_main_v21 (ix5 b (0 : Fin 1) τ f k) = ix5 b (1 : Fin 2) τ f k := chan1_index b τ f k

/-- The ten planes regrouped as two groups of five, the tap axis moved last: (b, p, τ, f, k) is plane 5 p + k. -/
theorem planes_index (b : Fin 8) (p : Fin 2) (τ : Fin 4096) (f : Fin 256) (k : Fin 5) (j : Fin 10)
    (hj : j.val = 5 * p.val + k.val) :
    idx_main_v13 (idx_main_v14 (ix5 b p τ f k)) = ix4 b j τ f := by
  have hb := b.isLt; have hp := p.isLt; have hτ := τ.isLt; have hf := f.isLt; have hk := k.isLt
  funext a
  match a with
  | ⟨0, _⟩ =>
    exact Fin.ext (by
      show ((((b.val * 2 + p.val) * 5 + k.val) * 4096 + τ.val) * 256 + f.val) / 10485760 = b.val; omega)
  | ⟨1, _⟩ =>
    exact Fin.ext (by
      show ((((b.val * 2 + p.val) * 5 + k.val) * 4096 + τ.val) * 256 + f.val) / 1048576 % 10 = j.val; omega)
  | ⟨2, _⟩ =>
    exact Fin.ext (by
      show ((((b.val * 2 + p.val) * 5 + k.val) * 4096 + τ.val) * 256 + f.val) / 256 % 4096 = τ.val; omega)
  | ⟨3, _⟩ =>
    exact Fin.ext (by
      show ((((b.val * 2 + p.val) * 5 + k.val) * 4096 + τ.val) * 256 + f.val) % 256 = f.val; omega)

/-- Channel 0 of the stack: the real signal delayed for tap k. -/
theorem sigRe_apply (X : SpecS.Idx → EReal) (b : Fin 8) (τ : Fin 4096) (f : Fin 256) (k : Fin 5) :
    val_main_v16 (F := Ideal) X (ix4 b τ f k) = tap X b 0 τ f k := by
  rw [val_main_v16_apply, reshape_index, val_main_v15_apply, chan0_index, tap_apply]

/-- Channel 1 of the stack: the imaginary signal delayed for tap k. -/
theorem sigIm_apply (X : SpecS.Idx → EReal) (b : Fin 8) (τ : Fin 4096) (f : Fin 256) (k : Fin 5) :
    val_main_v18 (F := Ideal) X (ix4 b τ f k) = tap X b 1 τ f k := by
  rw [val_main_v18_apply, reshape_index18, val_main_v17_apply, chan1_index, tap_apply]

/-- Group 0 of the planes: tap k's real coefficient. -/
theorem coefRe_apply (W : CoefS.Idx → EReal) (b : Fin 8) (τ : Fin 4096) (f : Fin 256) (k : Fin 5) :
    val_main_v20 (F := Ideal) W (ix4 b τ f k) = coefRe W b τ f k := by
  rw [val_main_v20_apply, reshape_index20, val_main_v19_apply, chan0_index19, val_main_v14_apply, val_main_v13_apply]
  exact congrArg W (planes_index b 0 τ f k ⟨k.val, by have := k.isLt; omega⟩ (by show k.val = 5 * 0 + k.val; omega))

/-- Group 1 of the planes: tap k's imaginary coefficient. -/
theorem coefIm_apply (W : CoefS.Idx → EReal) (b : Fin 8) (τ : Fin 4096) (f : Fin 256) (k : Fin 5) :
    val_main_v22 (F := Ideal) W (ix4 b τ f k) = coefIm W b τ f k := by
  rw [val_main_v22_apply, reshape_index22, val_main_v21_apply, chan1_index21, val_main_v14_apply, val_main_v13_apply]
  exact congrArg W (planes_index b 1 τ f k ⟨5 + k.val, by have := k.isLt; omega⟩ (by show 5 + k.val = 5 * 1 + k.val; omega))

/-! ## The two product-sums over the taps -/

theorem tapAxis_index (b : Fin 8) (τ : Fin 4096) (f : Fin 256) (k : Fin 5) :
    idx_main_v26 (ix3 b τ f) k = ix4 b τ f k := by
  funext a
  match a with
  | ⟨0, _⟩ => rfl | ⟨1, _⟩ => rfl | ⟨2, _⟩ => rfl | ⟨3, _⟩ => rfl

theorem tapAxis_index30 (b : Fin 8) (τ : Fin 4096) (f : Fin 256) (k : Fin 5) :
    idx_main_v30 (ix3 b τ f) k = ix4 b τ f k := tapAxis_index b τ f k

/-- The real part: zero plus the sum over the taps of pr·cr - pi·ci. -/
theorem re_apply (X : SpecS.Idx → EReal) (W : CoefS.Idx → EReal) (b : Fin 8) (τ : Fin 4096) (f : Fin 256) :
    val_main_v26 (F := Ideal) X W (ix3 b τ f) = Cert.Filter.realPart X W b τ f := by
  rw [val_main_v26_apply]
  unfold Cert.Filter.realPart
  refine congrArg₂ (· + ·) Ideal.ofBits_zero_f32 (Finset.sum_congr rfl fun k _ => ?_)
  rw [tapAxis_index, val_main_v25_apply, val_main_v23_apply, val_main_v24_apply, sigRe_apply, sigIm_apply,
    coefRe_apply, coefIm_apply]
  rfl

/-- The imaginary part: zero plus the sum over the taps of pi·cr + pr·ci. -/
theorem im_apply (X : SpecS.Idx → EReal) (W : CoefS.Idx → EReal) (b : Fin 8) (τ : Fin 4096) (f : Fin 256) :
    val_main_v30 (F := Ideal) X W (ix3 b τ f) = Cert.Filter.imagPart X W b τ f := by
  rw [val_main_v30_apply]
  unfold Cert.Filter.imagPart
  refine congrArg₂ (· + ·) Ideal.ofBits_zero_f32 (Finset.sum_congr rfl fun k _ => ?_)
  rw [tapAxis_index30, val_main_v29_apply, val_main_v27_apply, val_main_v28_apply, sigRe_apply, sigIm_apply,
    coefRe_apply, coefIm_apply]
  rfl

/-! ## The two parts joined on the channel axis -/

theorem part_index (b : Fin 8) (τ : Fin 4096) (f : Fin 256) :
    idx_main_v31 (ix4 b (0 : Fin 1) τ f) = ix3 b τ f := by
  funext a
  match a with
  | ⟨0, _⟩ => rfl | ⟨1, _⟩ => rfl | ⟨2, _⟩ => rfl

theorem part_index32 (b : Fin 8) (τ : Fin 4096) (f : Fin 256) :
    idx_main_v32 (ix4 b (0 : Fin 1) τ f) = ix3 b τ f := part_index b τ f

/-- Channel 0 of the joined parts is the real part. -/
theorem parts_re (X : SpecS.Idx → EReal) (W : CoefS.Idx → EReal) (b : Fin 8) (c : Fin 2) (τ : Fin 4096) (f : Fin 256)
    (hc : c.val = 0) :
    val_main_v33 (F := Ideal) X W (ix4 b c τ f) = Cert.Filter.realPart X W b τ f := by
  unfold val_main_v33
  refine (concatenate_pair_apply_left (1 : Fin 4) (val_main_v31 (F := Ideal) X W) (val_main_v32 (F := Ideal) X W)
    concatenates_S8x1x4096x256_S8x1x4096x256_S8x2x4096x256_d1 (ix4 b c τ f) rfl (ix4 b (0 : Fin 1) τ f)
    (fun a => match a with
      | ⟨0, _⟩ => rfl
      | ⟨1, _⟩ => by show 0 = c.val; omega
      | ⟨2, _⟩ => rfl
      | ⟨3, _⟩ => rfl)).trans ?_
  rw [val_main_v31_apply, part_index, re_apply]

/-- Channel 1 of the joined parts is the imaginary part. -/
theorem parts_im (X : SpecS.Idx → EReal) (W : CoefS.Idx → EReal) (b : Fin 8) (c : Fin 2) (τ : Fin 4096) (f : Fin 256)
    (hc : ¬c.val = 0) :
    val_main_v33 (F := Ideal) X W (ix4 b c τ f) = Cert.Filter.imagPart X W b τ f := by
  unfold val_main_v33
  refine (concatenate_pair_apply_right (1 : Fin 4) (val_main_v31 (F := Ideal) X W) (val_main_v32 (F := Ideal) X W)
    concatenates_S8x1x4096x256_S8x1x4096x256_S8x2x4096x256_d1 (ix4 b c τ f) rfl rfl (ix4 b (0 : Fin 1) τ f)
    (fun a ha => match a, ha with
      | ⟨0, _⟩, _ => rfl
      | ⟨1, _⟩, ha => (ha rfl).elim
      | ⟨2, _⟩, _ => rfl
      | ⟨3, _⟩, _ => rfl)
    (by show 0 + 1 = c.val; have := c.isLt; omega)).trans ?_
  rw [val_main_v32_apply, part_index32, im_apply]

/-! ## The filtered bins joined with the untouched ones -/

/-- On the first 256 bins the result is the joined parts. -/
theorem low_bins (X : SpecS.Idx → EReal) (W : CoefS.Idx → EReal) (b : Fin 8) (c : Fin 2) (τ : Fin 4096) (f : Fin 481)
    (hf : f.val < 256) :
    val_main_v35 (F := Ideal) X W (ix4 b c τ f) = val_main_v33 (F := Ideal) X W (ix4 b c τ ⟨f.val, hf⟩) := by
  unfold val_main_v35
  exact concatenate_pair_apply_left (3 : Fin 4) (val_main_v33 (F := Ideal) X W) (val_main_v34 (F := Ideal) X)
    concatenates_S8x2x4096x256_S8x2x4096x225_S8x2x4096x481_d3 (ix4 b c τ f) rfl (ix4 b c τ (⟨f.val, hf⟩ : Fin 256))
    (fun a => match a with
      | ⟨0, _⟩ => rfl | ⟨1, _⟩ => rfl | ⟨2, _⟩ => rfl | ⟨3, _⟩ => rfl)

/-- On the last 225 bins the result is the signal itself. -/
theorem high_bins (X : SpecS.Idx → EReal) (W : CoefS.Idx → EReal) (b : Fin 8) (c : Fin 2) (τ : Fin 4096) (f : Fin 481)
    (hf : ¬f.val < 256) :
    val_main_v35 (F := Ideal) X W (ix4 b c τ f) = X (ix4 b c τ f) := by
  unfold val_main_v35
  refine (concatenate_pair_apply_right (3 : Fin 4) (val_main_v33 (F := Ideal) X W) (val_main_v34 (F := Ideal) X)
    concatenates_S8x2x4096x256_S8x2x4096x225_S8x2x4096x481_d3 (ix4 b c τ f) rfl rfl
    (ix4 b c τ (⟨f.val - 256, by have := f.isLt; omega⟩ : Fin 225))
    (fun a ha => match a, ha with
      | ⟨0, _⟩, _ => rfl
      | ⟨1, _⟩, _ => rfl
      | ⟨2, _⟩, _ => rfl
      | ⟨3, _⟩, ha => (ha rfl).elim)
    (by show f.val - 256 + 256 = f.val; omega)).trans ?_
  rw [val_main_v34_apply]
  refine congrArg X (funext fun a => ?_)
  match a with
  | ⟨0, _⟩ => rfl
  | ⟨1, _⟩ => rfl
  | ⟨2, _⟩ => rfl
  | ⟨3, _⟩ => exact Fin.ext (by show 256 + (f.val - 256) = f.val; omega)

/-! ## The result -/

/-- The reference program's result is the causal five-tap complex filter of its two arguments. -/
theorem result_eq (X : Cert.Filter.SpecS.Idx → EReal) (W : Cert.Filter.CoefS.Idx → EReal) :
    Cert.ReferenceIdeal.ReadP.val_main_v35 (F := Ideal) X W = Cert.Filter.filtered X W := by
  funext i
  obtain ⟨b, c, τ, f, rfl⟩ : ∃ b c τ f, i = ix4 b c τ f := ⟨i 0, i 1, i 2, i 3, eq_ix4 i⟩
  rw [filtered_apply]
  unfold filteredAt
  by_cases hf : f.val < 256
  · rw [dif_pos hf, low_bins X W b c τ f hf]
    by_cases hc : c.val = 0
    · rw [if_pos hc]
      exact parts_re X W b c τ ⟨f.val, hf⟩ hc
    · rw [if_neg hc]
      exact parts_im X W b c τ ⟨f.val, hf⟩ hc
  · rw [dif_neg hf]
    exact high_bins X W b c τ f hf

end Cert.ReferenceIdeal.RefValue

end
-- ==== Proof.TileLayout.lean ====
/-
  The tile body's arithmetic, read at one row and one frequency bin.

  The body stacks, per channel, the four history rows on top of the tile's 512 rows (a 516-row array), and tap `k` reads
  rows `k .. k + 511` of the stack: at tile row `r` that is stack row `r + k`, a history row while `r + k < 4` and tile
  row `r + k - 4` afterwards. The real and imaginary parts are accumulated tap by tap from zero. This module reads each
  of the body's named values at an index, over arbitrary loaded vectors.
-/
import proofs.«139439_j40218073759990_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## Layout -/

/-- A [1, 1, 512, 256] vector viewed [512, 256]: entry `(r, f)` is entry `(0, 0, r, f)`. -/
theorem tile_cast (v : FVec Ideal S1x1x512x256 .f32) (h : S1x1x512x256.ShapeCasts S512x256) (r : Fin 512) (f : Fin 256) :
    shapeCast S512x256 v h (ix2 r f) = v (ix4 0 0 r f) :=
  shapeCast_apply v h _ _ (by
    rw [Shape.rowMajor_val_four, Shape.rowMajor_val_two]
    show ((0 * 1 + 0) * 512 + r.val) * 256 + f.val = r.val * 256 + f.val
    omega)

/-- A [512, 256] vector viewed [1, 1, 512, 256]: entry `(·, ·, r, f)` is entry `(r, f)`. -/
theorem tile_uncast (v : FVec Ideal S512x256 .f32) (h : S512x256.ShapeCasts S1x1x512x256) (u u' : Fin 1) (r : Fin 512) (f : Fin 256) :
    shapeCast S1x1x512x256 v h (ix4 u u' r f) = v (ix2 r f) :=
  shapeCast_apply v h _ _ (by
    have hu : u.val = 0 := by omega
    have hu' : u'.val = 0 := by omega
    rw [Shape.rowMajor_val_two, Shape.rowMajor_val_four]
    show r.val * 256 + f.val = ((u.val * 1 + u'.val) * 512 + r.val) * 256 + f.val
    rw [hu, hu']; omega)

/-- Row `s` of the 516-row stack: a history row while `s < 4`, tile row `s - 4` afterwards. -/
theorem stack_apply (h4 : S1x4x256.ShapeCasts S4x256) (h512 : S1x1x512x256.ShapeCasts S512x256)
    (hc : Shape.Concatenates [S4x256, S512x256] S516x256 0)
    (v3 : Vec Ideal S1x1x512x256 .f32) (v7 : Vec Ideal S1x4x256 .f32) (s : Fin 516) (f : Fin 256) :
    concatenate S516x256 0 [⟨S4x256, shapeCast S4x256 v7 h4⟩, ⟨S512x256, shapeCast S512x256 v3 h512⟩] hc (ix2 s f)
      = if h : s.val < 4 then v7 (ix3 0 ⟨s.val, h⟩ f) else v3 (ix4 0 0 ⟨s.val - 4, by have := s.isLt; omega⟩ f) := by
  by_cases h : s.val < 4
  · rw [dif_pos h]
    refine (concatenate_pair_apply_left (0 : Fin S516x256.rank) _ _ hc (ix2 s f) rfl (ix2 ⟨s.val, h⟩ f)
      (fun b => match b with | ⟨0, _⟩ => rfl | ⟨1, _⟩ => rfl)).trans ?_
    exact shapeCast_1ab_ab_apply v7 h4 ⟨s.val, h⟩ f
  · rw [dif_neg h]
    refine (concatenate_pair_apply_right (0 : Fin S516x256.rank) _ _ hc (ix2 s f) rfl rfl
      (ix2 ⟨s.val - 4, by have := s.isLt; omega⟩ f)
      (fun b hb => match b, hb with | ⟨0, _⟩, hb => absurd rfl hb | ⟨1, _⟩, _ => rfl)
      (by show (s.val - 4) + 4 = s.val; omega)).trans ?_
    exact tile_cast v3 h512 _ f

/-- Tap `k`'s slice of the stack at tile row `r` is stack row `r + k`. -/
theorem slice_apply (V : FVec Ideal S516x256 .f32) (k : Nat) (hk : k ≤ 4) (h : S516x256.Slices ![k, 0] S512x256) (r : Fin 512) (f : Fin 256) :
    extractStridedSlice S512x256 ![k, 0] V h (ix2 r f) = V (ix2 ⟨r.val + k, by have := r.isLt; omega⟩ f) :=
  extractStridedSlice_apply ![k, 0] V h _ _ (fun a => match a with
    | ⟨0, _⟩ => by show r.val + k = k + r.val; omega
    | ⟨1, _⟩ => by show f.val = 0 + f.val; omega)

/-! ## The body's named values at an index -/

/-- The real channel's stack (four history rows `v7`, then the tile `v3`) at row `s`. -/
theorem pay7_apply (v3 : Vec Ideal S1x1x512x256 .f32) (v7 : Vec Ideal S1x4x256 .f32) (s : Fin 516) (f : Fin 256) :
    k0_pay7 v3 v7 (ix2 s f)
      = if h : s.val < 4 then v7 (ix3 0 ⟨s.val, h⟩ f) else v3 (ix4 0 0 ⟨s.val - 4, by have := s.isLt; omega⟩ f) :=
  stack_apply shapeCasts_S1x4x256_S4x256 shapeCasts_S1x1x512x256_S512x256 concatenates_S4x256_S512x256_S516x256_d0 v3 v7 s f

/-- The imaginary channel's stack (four history rows `v10`, then the tile `v5`) at row `s`. -/
theorem pay8_apply (v5 : Vec Ideal S1x1x512x256 .f32) (v10 : Vec Ideal S1x4x256 .f32) (s : Fin 516) (f : Fin 256) :
    k0_pay8 v5 v10 (ix2 s f)
      = if h : s.val < 4 then v10 (ix3 0 ⟨s.val, h⟩ f) else v5 (ix4 0 0 ⟨s.val - 4, by have := s.isLt; omega⟩ f) :=
  stack_apply shapeCasts_S1x4x256_S4x256 shapeCasts_S1x1x512x256_S512x256 concatenates_S4x256_S512x256_S516x256_d0 v5 v10 s f

/-- Tap 1's rows of the real stack. -/
theorem pay15_apply (v3 : Vec Ideal S1x1x512x256 .f32) (v7 : Vec Ideal S1x4x256 .f32) (r : Fin 512) (f : Fin 256) :
    k0_pay15 v3 v7 (ix2 r f) = k0_pay7 v3 v7 (ix2 ⟨r.val + 1, by have := r.isLt; omega⟩ f) :=
  slice_apply (k0_pay7 v3 v7) 1 (by omega) slices_S516x256_o1_0_S512x256 r f

/-- Tap 1's rows of the imaginary stack. -/
theorem pay16_apply (v5 : Vec Ideal S1x1x512x256 .f32) (v10 : Vec Ideal S1x4x256 .f32) (r : Fin 512) (f : Fin 256) :
    k0_pay16 v5 v10 (ix2 r f) = k0_pay8 v5 v10 (ix2 ⟨r.val + 1, by have := r.isLt; omega⟩ f) :=
  slice_apply (k0_pay8 v5 v10) 1 (by omega) slices_S516x256_o1_0_S512x256 r f

/-- The real accumulator after tap 0: `0 + pr₀·cr₀ - pi₀·ci₀`. -/
theorem pay13_apply (v3 v5 : Vec Ideal S1x1x512x256 .f32) (v7 v10 : Vec Ideal S1x4x256 .f32) (v17 v19 : Vec Ideal S1x1x512x256 .f32)
    (r : Fin 512) (f : Fin 256) :
    k0_pay13 v3 v5 v7 v10 v17 v19 (ix2 r f)
      = 0 + k0_pay7 v3 v7 (ix2 ⟨r.val + 0, by have := r.isLt; omega⟩ f) * v17 (ix4 0 0 r f)
          - k0_pay8 v5 v10 (ix2 ⟨r.val + 0, by have := r.isLt; omega⟩ f) * v19 (ix4 0 0 r f) := by
  unfold k0_pay13 k0_pay9 k0_pay10 k0_pay11 k0_pay12
  simp only [subf_apply, addf_apply, mulf_apply, broadcast_apply, slice_apply _ 0 (by omega), tile_cast]
  rw [show (Scalar.ofBits (F := Ideal) .f32 0x00000000#32 : EReal) = 0 from Ideal.ofBits_zero_f32]

/-- The imaginary accumulator after tap 0: `0 + pi₀·cr₀ + pr₀·ci₀`. -/
theorem pay14_apply (v3 v5 : Vec Ideal S1x1x512x256 .f32) (v7 v10 : Vec Ideal S1x4x256 .f32) (v17 v19 : Vec Ideal S1x1x512x256 .f32)
    (r : Fin 512) (f : Fin 256) :
    k0_pay14 v3 v5 v7 v10 v17 v19 (ix2 r f)
      = 0 + k0_pay8 v5 v10 (ix2 ⟨r.val + 0, by have := r.isLt; omega⟩ f) * v17 (ix4 0 0 r f)
          + k0_pay7 v3 v7 (ix2 ⟨r.val + 0, by have := r.isLt; omega⟩ f) * v19 (ix4 0 0 r f) := by
  unfold k0_pay14 k0_pay9 k0_pay10 k0_pay11 k0_pay12
  simp only [addf_apply, mulf_apply, broadcast_apply, slice_apply _ 0 (by omega), tile_cast]
  rw [show (Scalar.ofBits (F := Ideal) .f32 0x00000000#32 : EReal) = 0 from Ideal.ofBits_zero_f32]

/-- The real accumulator after taps 1, 2, 3, over the accumulator `v24` after tap 0. -/
theorem pay28_apply (v9 v12 : FVec Ideal S516x256 .f32) (v24 v29 v30 : FVec Ideal S512x256 .f32)
    (v31 v33 v45 v47 v59 v61 : Vec Ideal S1x1x512x256 .f32) (r : Fin 512) (f : Fin 256) :
    k0_pay28 v9 v12 v24 v29 v30 v31 v33 v45 v47 v59 v61 (ix2 r f)
      = v24 (ix2 r f) + v29 (ix2 r f) * v31 (ix4 0 0 r f) - v30 (ix2 r f) * v33 (ix4 0 0 r f)
          + v9 (ix2 ⟨r.val + 2, by have := r.isLt; omega⟩ f) * v45 (ix4 0 0 r f)
          - v12 (ix2 ⟨r.val + 2, by have := r.isLt; omega⟩ f) * v47 (ix4 0 0 r f)
          + v9 (ix2 ⟨r.val + 3, by have := r.isLt; omega⟩ f) * v59 (ix4 0 0 r f)
          - v12 (ix2 ⟨r.val + 3, by have := r.isLt; omega⟩ f) * v61 (ix4 0 0 r f) := by
  unfold k0_pay28 k0_pay17 k0_pay18 k0_pay19 k0_pay20 k0_pay21 k0_pay22 k0_pay24 k0_pay25 k0_pay26 k0_pay27
  simp only [subf_apply, addf_apply, mulf_apply, slice_apply _ 2 (by omega), slice_apply _ 3 (by omega), tile_cast]

/-- The imaginary accumulator after taps 1 and 2, over the accumulator `v28` after tap 0. -/
theorem pay23_apply (v9 v12 : FVec Ideal S516x256 .f32) (v28 v29 v30 : FVec Ideal S512x256 .f32)
    (v31 v33 v45 v47 : Vec Ideal S1x1x512x256 .f32) (r : Fin 512) (f : Fin 256) :
    k0_pay23 v9 v12 v28 v29 v30 v31 v33 v45 v47 (ix2 r f)
      = v28 (ix2 r f) + v30 (ix2 r f) * v31 (ix4 0 0 r f) + v29 (ix2 r f) * v33 (ix4 0 0 r f)
          + v12 (ix2 ⟨r.val + 2, by have := r.isLt; omega⟩ f) * v45 (ix4 0 0 r f)
          + v9 (ix2 ⟨r.val + 2, by have := r.isLt; omega⟩ f) * v47 (ix4 0 0 r f) := by
  unfold k0_pay23 k0_pay17 k0_pay18 k0_pay19 k0_pay20 k0_pay21 k0_pay22
  simp only [addf_apply, mulf_apply, slice_apply _ 2 (by omega), tile_cast]

/-- The real part stored: the accumulator `v66` after tap 3, plus tap 4. -/
theorem pay33_apply (v9 v12 : FVec Ideal S516x256 .f32) (v66 : FVec Ideal S512x256 .f32) (v73 v75 : Vec Ideal S1x1x512x256 .f32)
    (u u' : Fin 1) (r : Fin 512) (f : Fin 256) :
    k0_pay33 v9 v12 v66 v73 v75 (ix4 u u' r f)
      = v66 (ix2 r f) + v9 (ix2 ⟨r.val + 4, by have := r.isLt; omega⟩ f) * v73 (ix4 0 0 r f)
          - v12 (ix2 ⟨r.val + 4, by have := r.isLt; omega⟩ f) * v75 (ix4 0 0 r f) := by
  unfold k0_pay33 k0_pay29 k0_pay30 k0_pay31 k0_pay32
  simp only [tile_uncast, subf_apply, addf_apply, mulf_apply, slice_apply _ 4 (by omega), tile_cast]

/-- The imaginary part stored: the accumulator `v56` after tap 2, plus taps 3 and 4. -/
theorem pay35_apply (v9 v12 : FVec Ideal S516x256 .f32) (v56 v57 v58 v60 v62 : FVec Ideal S512x256 .f32) (v73 v75 : Vec Ideal S1x1x512x256 .f32)
    (u u' : Fin 1) (r : Fin 512) (f : Fin 256) :
    k0_pay35 v9 v12 v56 v57 v58 v60 v62 v73 v75 (ix4 u u' r f)
      = v56 (ix2 r f) + v58 (ix2 r f) * v60 (ix2 r f) + v57 (ix2 r f) * v62 (ix2 r f)
          + v12 (ix2 ⟨r.val + 4, by have := r.isLt; omega⟩ f) * v73 (ix4 0 0 r f)
          + v9 (ix2 ⟨r.val + 4, by have := r.isLt; omega⟩ f) * v75 (ix4 0 0 r f) := by
  unfold k0_pay35 k0_pay29 k0_pay30 k0_pay31 k0_pay32
  simp only [tile_uncast, addf_apply, mulf_apply, slice_apply _ 4 (by omega), tile_cast]

/-- Tap 3's rows of a stack. -/
theorem pay24_apply (v9 : FVec Ideal S516x256 .f32) (r : Fin 512) (f : Fin 256) :
    k0_pay24 v9 (ix2 r f) = v9 (ix2 ⟨r.val + 3, by have := r.isLt; omega⟩ f) := slice_apply v9 3 (by omega) slices_S516x256_o3_0_S512x256 r f
theorem pay25_apply (v12 : FVec Ideal S516x256 .f32) (r : Fin 512) (f : Fin 256) :
    k0_pay25 v12 (ix2 r f) = v12 (ix2 ⟨r.val + 3, by have := r.isLt; omega⟩ f) := slice_apply v12 3 (by omega) slices_S516x256_o3_0_S512x256 r f
/-- Tap 3's coefficients, viewed [512, 256]. -/
theorem pay26_apply (v59 : Vec Ideal S1x1x512x256 .f32) (r : Fin 512) (f : Fin 256) :
    k0_pay26 v59 (ix2 r f) = v59 (ix4 0 0 r f) := tile_cast v59 shapeCasts_S1x1x512x256_S512x256 r f
theorem pay27_apply (v61 : Vec Ideal S1x1x512x256 .f32) (r : Fin 512) (f : Fin 256) :
    k0_pay27 v61 (ix2 r f) = v61 (ix4 0 0 r f) := tile_cast v61 shapeCasts_S1x1x512x256_S512x256 r f

/-- THE REAL PART the body stores at tile row `r`, bin `f`, over the loaded vectors: five taps accumulated from zero, tap `k`
    reading row `r + k` of the two stacks. -/
theorem real_apply (v3 v5 : Vec Ideal S1x1x512x256 .f32) (v7 v10 : Vec Ideal S1x4x256 .f32)
    (v17 v19 v31 v33 v45 v47 v59 v61 v73 v75 : Vec Ideal S1x1x512x256 .f32) (u u' : Fin 1) (r : Fin 512) (f : Fin 256) :
    k0_pay33 (k0_pay7 v3 v7) (k0_pay8 v5 v10)
        (k0_pay28 (k0_pay7 v3 v7) (k0_pay8 v5 v10) (k0_pay13 v3 v5 v7 v10 v17 v19) (k0_pay15 v3 v7) (k0_pay16 v5 v10) v31 v33 v45 v47 v59 v61)
        v73 v75 (ix4 u u' r f)
      = 0 + k0_pay7 v3 v7 (ix2 ⟨r.val + 0, by have := r.isLt; omega⟩ f) * v17 (ix4 0 0 r f)
          - k0_pay8 v5 v10 (ix2 ⟨r.val + 0, by have := r.isLt; omega⟩ f) * v19 (ix4 0 0 r f)
          + k0_pay7 v3 v7 (ix2 ⟨r.val + 1, by have := r.isLt; omega⟩ f) * v31 (ix4 0 0 r f)
          - k0_pay8 v5 v10 (ix2 ⟨r.val + 1, by have := r.isLt; omega⟩ f) * v33 (ix4 0 0 r f)
          + k0_pay7 v3 v7 (ix2 ⟨r.val + 2, by have := r.isLt; omega⟩ f) * v45 (ix4 0 0 r f)
          - k0_pay8 v5 v10 (ix2 ⟨r.val + 2, by have := r.isLt; omega⟩ f) * v47 (ix4 0 0 r f)
          + k0_pay7 v3 v7 (ix2 ⟨r.val + 3, by have := r.isLt; omega⟩ f) * v59 (ix4 0 0 r f)
          - k0_pay8 v5 v10 (ix2 ⟨r.val + 3, by have := r.isLt; omega⟩ f) * v61 (ix4 0 0 r f)
          + k0_pay7 v3 v7 (ix2 ⟨r.val + 4, by have := r.isLt; omega⟩ f) * v73 (ix4 0 0 r f)
          - k0_pay8 v5 v10 (ix2 ⟨r.val + 4, by have := r.isLt; omega⟩ f) * v75 (ix4 0 0 r f) := by
  rw [pay33_apply, pay28_apply, pay13_apply, pay15_apply, pay16_apply]

/-- THE IMAGINARY PART the body stores at tile row `r`, bin `f`, over the loaded vectors. -/
theorem imag_apply (v3 v5 : Vec Ideal S1x1x512x256 .f32) (v7 v10 : Vec Ideal S1x4x256 .f32)
    (v17 v19 v31 v33 v45 v47 v59 v61 v73 v75 : Vec Ideal S1x1x512x256 .f32) (u u' : Fin 1) (r : Fin 512) (f : Fin 256) :
    k0_pay35 (k0_pay7 v3 v7) (k0_pay8 v5 v10)
        (k0_pay23 (k0_pay7 v3 v7) (k0_pay8 v5 v10) (k0_pay14 v3 v5 v7 v10 v17 v19) (k0_pay15 v3 v7) (k0_pay16 v5 v10) v31 v33 v45 v47)
        (k0_pay24 (k0_pay7 v3 v7)) (k0_pay25 (k0_pay8 v5 v10)) (k0_pay26 v59) (k0_pay27 v61) v73 v75 (ix4 u u' r f)
      = 0 + k0_pay8 v5 v10 (ix2 ⟨r.val + 0, by have := r.isLt; omega⟩ f) * v17 (ix4 0 0 r f)
          + k0_pay7 v3 v7 (ix2 ⟨r.val + 0, by have := r.isLt; omega⟩ f) * v19 (ix4 0 0 r f)
          + k0_pay8 v5 v10 (ix2 ⟨r.val + 1, by have := r.isLt; omega⟩ f) * v31 (ix4 0 0 r f)
          + k0_pay7 v3 v7 (ix2 ⟨r.val + 1, by have := r.isLt; omega⟩ f) * v33 (ix4 0 0 r f)
          + k0_pay8 v5 v10 (ix2 ⟨r.val + 2, by have := r.isLt; omega⟩ f) * v45 (ix4 0 0 r f)
          + k0_pay7 v3 v7 (ix2 ⟨r.val + 2, by have := r.isLt; omega⟩ f) * v47 (ix4 0 0 r f)
          + k0_pay8 v5 v10 (ix2 ⟨r.val + 3, by have := r.isLt; omega⟩ f) * v59 (ix4 0 0 r f)
          + k0_pay7 v3 v7 (ix2 ⟨r.val + 3, by have := r.isLt; omega⟩ f) * v61 (ix4 0 0 r f)
          + k0_pay8 v5 v10 (ix2 ⟨r.val + 4, by have := r.isLt; omega⟩ f) * v73 (ix4 0 0 r f)
          + k0_pay7 v3 v7 (ix2 ⟨r.val + 4, by have := r.isLt; omega⟩ f) * v75 (ix4 0 0 r f) := by
  rw [pay35_apply, pay23_apply, pay14_apply, pay15_apply, pay16_apply, pay24_apply, pay25_apply, pay26_apply, pay27_apply]

/-! ## The pass-through and history payloads -/

/-- The pass-through payload (a cast to [512, 225] and back) is the loaded vector itself. -/
theorem pay1_eq (v96 : Vec Ideal S1x1x512x225 .f32) : k0_pay1 v96 = v96 :=
  shapeCast_shapeCast v96 shapeCasts_S1x1x512x225_S512x225 shapeCasts_S512x225_S1x1x512x225

theorem pay34_eq (v88 : Vec Ideal S1x1x512x225 .f32) : k0_pay34 v88 = v88 :=
  shapeCast_shapeCast v88 shapeCasts_S1x1x512x225_S512x225 shapeCasts_S512x225_S1x1x512x225

/-- The zero fill of the history rows. -/
theorem pay4_apply (j : S2x4x256.Idx) : k0_pay4 (F := Ideal) j = 0 := by
  unfold k0_pay4
  rw [shapeCast_self]
  exact Ideal.ofBits_zero_f32

/-- The history payload: the last four rows (508 .. 511) of a [512, 256] tile, as a [1, 4, 256] block. -/
theorem last4_apply (v4 : FVec Ideal S512x256 .f32) (hs : S512x256.Slices ![508, 0] S4x256) (hc : S4x256.ShapeCasts S1x4x256)
    (u : Fin 1) (s : Fin 4) (f : Fin 256) :
    shapeCast S1x4x256 (extractStridedSlice S4x256 ![508, 0] v4 hs) hc (ix3 u s f)
      = v4 (ix2 ⟨508 + s.val, by have := s.isLt; omega⟩ f) :=
  (shapeCast_ab_1ab_apply _ hc u s f).trans
    (extractStridedSlice_apply ![508, 0] v4 hs _ _ (fun a => match a with
      | ⟨0, _⟩ => by show 508 + s.val = 508 + s.val; rfl
      | ⟨1, _⟩ => by show f.val = 0 + f.val; omega))

/-- Channel 0's history payload over the loaded tile `v3`. -/
theorem pay2_apply (v3 : Vec Ideal S1x1x512x256 .f32) (u : Fin 1) (s : Fin 4) (f : Fin 256) :
    k0_pay2 (k0_pay5 v3) (ix3 u s f) = v3 (ix4 0 0 ⟨508 + s.val, by have := s.isLt; omega⟩ f) :=
  (last4_apply (k0_pay5 v3) slices_S512x256_o508_0_S4x256 shapeCasts_S4x256_S1x4x256 u s f).trans
    (tile_cast v3 shapeCasts_S1x1x512x256_S512x256 _ f)

/-- Channel 1's history payload over the loaded tile `v5`. -/
theorem pay3_apply (v5 : Vec Ideal S1x1x512x256 .f32) (u : Fin 1) (s : Fin 4) (f : Fin 256) :
    k0_pay3 (k0_pay6 v5) (ix3 u s f) = v5 (ix4 0 0 ⟨508 + s.val, by have := s.isLt; omega⟩ f) :=
  (last4_apply (k0_pay6 v5) slices_S512x256_o508_0_S4x256 shapeCasts_S4x256_S1x4x256 u s f).trans
    (tile_cast v5 shapeCasts_S1x1x512x256_S512x256 _ f)

end Cert.KernelIdeal.Tile

end
-- ==== Proof.TilePieces.lean ====
/-
  What one run of the body leaves in the output tile and in the history rows.

  The body writes the output tile through four rectangles (per channel: the first 256 bins, then the last 225) and the
  history rows through two (one per channel; at a batch's first tile a zero fill of all eight rows comes first). Every
  rectangle's payload, read at its own index, is ONE function of the tile index: `Cert.Filter.blockOut` of the two input
  tiles and the history rows the body found (zero rows at a batch's first tile, where the body has just stored them), and
  the history rows it leaves are the tile's last four (`Cert.Filter.lastRows`), whichever rows it found.
-/
import proofs.«139439_j40218073759990_1_alg».proof.Proof.Gen.KernelIdeal.Frame
import proofs.«139439_j40218073759990_1_alg».proof.Proof.FilterSpec
import proofs.«139439_j40218073759990_1_alg».proof.Proof.TileLayout
import Idealize.ShloMosaic.Lib.Tactic

noncomputable section

namespace Cert.KernelIdeal.Tile

open Cert.KernelIdeal Cert.KernelIdeal.Gen Idealize.ShloMosaic Idealize.ShloMosaic.TcCoe Idealize.SL.Sem
open Idealize.ShloMosaic.ValueIdx

/-! ## Loads through the body's rectangles -/

/-- Channel `cn`'s first 256 bins of the input tile. -/
theorem ld_spec (x0 : Vec Ideal S1x2x512x481 .f32) (cn : Nat) (hc : cn < 2) (inb) (ρ : Fin 512) (f : Fin 256) :
    View.ld x0 (Rect.unit (s := S1x2x512x481) ![0, cn, 0, 0] S1x1x512x256.size inb) (ix4 0 0 ρ f)
      = x0 (ix4 0 ⟨cn, hc⟩ ρ ⟨f.val, by have := f.isLt; omega⟩) :=
  congrArg x0 (funext fun a => Fin.ext (match a with
    | ⟨0, _⟩ => by show 0 + 1 * 0 = 0; omega
    | ⟨1, _⟩ => by show cn + 1 * 0 = cn; omega
    | ⟨2, _⟩ => by show 0 + 1 * ρ.val = ρ.val; omega
    | ⟨3, _⟩ => by show 0 + 1 * f.val = f.val; omega))

/-- Channel `cn`'s last 225 bins of the input tile. -/
theorem ld_pass (x0 : Vec Ideal S1x2x512x481 .f32) (cn : Nat) (hc : cn < 2) (inb) (u u' : Fin 1) (ρ : Fin 512) (g : Fin 225) :
    View.ld x0 (Rect.unit (s := S1x2x512x481) ![0, cn, 0, 256] S1x1x512x225.size inb) (ix4 u u' ρ g)
      = x0 (ix4 0 ⟨cn, hc⟩ ρ ⟨256 + g.val, by have := g.isLt; omega⟩) :=
  congrArg x0 (funext fun a => Fin.ext (match a with
    | ⟨0, _⟩ => by show 0 + 1 * u.val = 0; omega
    | ⟨1, _⟩ => by show cn + 1 * u'.val = cn; omega
    | ⟨2, _⟩ => by show 0 + 1 * ρ.val = ρ.val; omega
    | ⟨3, _⟩ => by show 256 + 1 * g.val = 256 + g.val; omega))

/-- Coefficient plane `jn` of the coefficient tile. -/
theorem ld_coef (x1 : Vec Ideal S1x10x512x256 .f32) (jn : Nat) (hj : jn < 10) (inb) (ρ : Fin 512) (f : Fin 256) :
    View.ld x1 (Rect.unit (s := S1x10x512x256) ![0, jn, 0, 0] S1x1x512x256.size inb) (ix4 0 0 ρ f)
      = x1 (ix4 0 ⟨jn, hj⟩ ρ f) :=
  congrArg x1 (funext fun a => Fin.ext (match a with
    | ⟨0, _⟩ => by show 0 + 1 * 0 = 0; omega
    | ⟨1, _⟩ => by show jn + 1 * 0 = jn; omega
    | ⟨2, _⟩ => by show 0 + 1 * ρ.val = ρ.val; omega
    | ⟨3, _⟩ => by show 0 + 1 * f.val = f.val; omega))

/-- Channel `cn`'s four history rows. -/
theorem ld_hist (h : Vec Ideal S2x4x256 .f32) (cn : Nat) (hc : cn < 2) (inb) (s : Fin 4) (f : Fin 256) :
    View.ld h (Rect.unit (s := S2x4x256) ![cn, 0, 0] S1x4x256.size inb) (ix3 0 s f) = h (ix3 ⟨cn, hc⟩ s f) :=
  congrArg h (funext fun a => Fin.ext (match a with
    | ⟨0, _⟩ => by show cn + 1 * 0 = cn; omega
    | ⟨1, _⟩ => by show 0 + 1 * s.val = s.val; omega
    | ⟨2, _⟩ => by show 0 + 1 * f.val = f.val; omega))

/-! ## What a run leaves -/

theorem hz3 : (![0, 0, 0] : Fin 3 → Nat) = fun _ => 0 := funext fun a => by fin_cases a <;> rfl

/-- The zero fill read back through a channel's rectangle is the zero history rows read through it. -/
theorem zero_fill (v : View sig .tc .vmem S2x4x256 .f32) (inbW) (cn : Nat) (inb) :
    v.readCov [(⟨Rect.unit (s := S2x4x256) ![0, 0, 0] S2x4x256.size inbW, k0_pay4 (F := Ideal)⟩ : View.Piece (Elt Ideal) S2x4x256 .f32)]
        (Rect.unit (s := S2x4x256) ![cn, 0, 0] S1x4x256.size inb).toLoadRect
      = View.ld (Cert.Filter.zeroRows : Vec Ideal S2x4x256 .f32) (Rect.unit (s := S2x4x256) ![cn, 0, 0] S1x4x256.size inb) := by
  rw [View.readCov_eq_canon' v]
  funext j
  rw [View.canon_unit_zero hz3]
  exact pay4_apply _

/-- EVERY PIECE of the output tile, at its own index, is the tile's result there: `x0`, `x1` the input tiles, `h` the history
    rows the body found. -/
theorem pieces_out (x0 : Vec Ideal S1x2x512x481 .f32) (x1 : Vec Ideal S1x10x512x256 .f32) (h : Vec Ideal S2x4x256 .f32)
    (L : List (View.Piece (Elt Ideal) S1x2x512x481 .f32))
    (hL : L =
      [⟨Rect.unit ![0, 1, 0, 256] ![1, 1, 512, 225] inb_S1x2x512x481_S1x1x512x225_0_1_0_256,
          k0_pay1 (View.ld x0 (Rect.unit ![0, 1, 0, 256] ![1, 1, 512, 225] inb_S1x2x512x481_S1x1x512x225_0_1_0_256))⟩,
        ⟨Rect.unit ![0, 1, 0, 0] ![1, 1, 512, 256] inb_S1x2x512x481_S1x1x512x256_0_1_0_0,
          k0_pay35
            (k0_pay7 (View.ld x0 (Rect.unit ![0, 0, 0, 0] S1x1x512x256.size inb_S1x2x512x481_S1x1x512x256_0_0_0_0))
              (View.ld h (Rect.unit ![0, 0, 0] S1x4x256.size inb_S2x4x256_S1x4x256_0_0_0)))
            (k0_pay8 (View.ld x0 (Rect.unit ![0, 1, 0, 0] S1x1x512x256.size inb_S1x2x512x481_S1x1x512x256_0_1_0_0))
              (View.ld h (Rect.unit ![1, 0, 0] S1x4x256.size inb_S2x4x256_S1x4x256_1_0_0)))
            (k0_pay23
              (k0_pay7 (View.ld x0 (Rect.unit ![0, 0, 0, 0] S1x1x512x256.size inb_S1x2x512x481_S1x1x512x256_0_0_0_0))
                (View.ld h (Rect.unit ![0, 0, 0] S1x4x256.size inb_S2x4x256_S1x4x256_0_0_0)))
              (k0_pay8 (View.ld x0 (Rect.unit ![0, 1, 0, 0] S1x1x512x256.size inb_S1x2x512x481_S1x1x512x256_0_1_0_0))
                (View.ld h (Rect.unit ![1, 0, 0] S1x4x256.size inb_S2x4x256_S1x4x256_1_0_0)))
              (k0_pay14 (View.ld x0 (Rect.unit ![0, 0, 0, 0] S1x1x512x256.size inb_S1x2x512x481_S1x1x512x256_0_0_0_0))
                (View.ld x0 (Rect.unit ![0, 1, 0, 0] S1x1x512x256.size inb_S1x2x512x481_S1x1x512x256_0_1_0_0))
                (View.ld h (Rect.unit ![0, 0, 0] S1x4x256.size inb_S2x4x256_S1x4x256_0_0_0))
                (View.ld h (Rect.unit ![1, 0, 0] S1x4x256.size inb_S2x4x256_S1x4x256_1_0_0))
                (View.ld x1 (Rect.unit ![0, 0, 0, 0] S1x1x512x256.size inb_S1x10x512x256_S1x1x512x256_0_0_0_0))
                (View.ld x1 (Rect.unit ![0, 5, 0, 0] S1x1x512x256.size inb_S1x10x512x256_S1x1x512x256_0_5_0_0)))
              (k0_pay15 (View.ld x0 (Rect.unit ![0, 0, 0, 0] S1x1x512x256.size inb_S1x2x512x481_S1x1x512x256_0_0_0_0))
                (View.ld h (Rect.unit ![0, 0, 0] S1x4x256.size inb_S2x4x256_S1x4x256_0_0_0)))
              (k0_pay16 (View.ld x0 (Rect.unit ![0, 1, 0, 0] S1x1x512x256.size inb_S1x2x512x481_S1x1x512x256_0_1_0_0))
                (View.ld h (Rect.unit ![1, 0, 0] S1x4x256.size inb_S2x4x256_S1x4x256_1_0_0)))
              (View.ld x1 (Rect.unit ![0, 1, 0, 0] S1x1x512x256.size inb_S1x10x512x256_S1x1x512x256_0_1_0_0))
              (View.ld x1 (Rect.unit ![0, 6, 0, 0] S1x1x512x256.size inb_S1x10x512x256_S1x1x512x256_0_6_0_0))
              (View.ld x1 (Rect.unit ![0, 2, 0, 0] S1x1x512x256.size inb_S1x10x512x256_S1x1x512x256_0_2_0_0))
              (View.ld x1 (Rect.unit ![0, 7, 0, 0] S1x1x512x256.size inb_S1x10x512x256_S1x1x512x256_0_7_0_0)))
            (k0_pay24 (k0_pay7 (View.ld x0 (Rect.unit ![0, 0, 0, 0] S1x1x512x256.size inb_S1x2x512x481_S1x1x512x256_0_0_0_0))
              (View.ld h (Rect.unit ![0, 0, 0] S1x4x256.size inb_S2x4x256_S1x4x256_0_0_0))))
            (k0_pay25 (k0_pay8 (View.ld x0 (Rect.unit ![0, 1, 0, 0] S1x1x512x256.size inb_S1x2x512x481_S1x1x512x256_0_1_0_0))
              (View.ld h (Rect.unit ![1, 0, 0] S1x4x256.size inb_S2x4x256_S1x4x256_1_0_0))))
            (k0_pay26 (View.ld x1 (Rect.unit ![0, 3, 0, 0] S1x1x512x256.size inb_S1x10x512x256_S1x1x512x256_0_3_0_0)))
            (k0_pay27 (View.ld x1 (Rect.unit ![0, 8, 0, 0] S1x1x512x256.size inb_S1x10x512x256_S1x1x512x256_0_8_0_0)))
            (View.ld x1 (Rect.unit ![0, 4, 0, 0] ![1, 1, 512, 256] inb_S1x10x512x256_S1x1x512x256_0_4_0_0))
            (View.ld x1 (Rect.unit ![0, 9, 0, 0] ![1, 1, 512, 256] inb_S1x10x512x256_S1x1x512x256_0_9_0_0))⟩,
        ⟨Rect.unit ![0, 0, 0, 256] ![1, 1, 512, 225] inb_S1x2x512x481_S1x1x512x225_0_0_0_256,
          k0_pay34 (View.ld x0 (Rect.unit ![0, 0, 0, 256] ![1, 1, 512, 225] inb_S1x2x512x481_S1x1x512x225_0_0_0_256))⟩,
        ⟨Rect.unit ![0, 0, 0, 0] ![1, 1, 512, 256] inb_S1x2x512x481_S1x1x512x256_0_0_0_0,
          k0_pay33
            (k0_pay7 (View.ld x0 (Rect.unit ![0, 0, 0, 0] S1x1x512x256.size inb_S1x2x512x481_S1x1x512x256_0_0_0_0))
              (View.ld h (Rect.unit ![0, 0, 0] S1x4x256.size inb_S2x4x256_S1x4x256_0_0_0)))
            (k0_pay8 (View.ld x0 (Rect.unit ![0, 1, 0, 0] S1x1x512x256.size inb_S1x2x512x481_S1x1x512x256_0_1_0_0))
              (View.ld h (Rect.unit ![1, 0, 0] S1x4x256.size inb_S2x4x256_S1x4x256_1_0_0)))
            (k0_pay28
              (k0_pay7 (View.ld x0 (Rect.unit ![0, 0, 0, 0] S1x1x512x256.size inb_S1x2x512x481_S1x1x512x256_0_0_0_0))
                (View.ld h (Rect.unit ![0, 0, 0] S1x4x256.size inb_S2x4x256_S1x4x256_0_0_0)))
              (k0_pay8 (View.ld x0 (Rect.unit ![0, 1, 0, 0] S1x1x512x256.size inb_S1x2x512x481_S1x1x512x256_0_1_0_0))
                (View.ld h (Rect.unit ![1, 0, 0] S1x4x256.size inb_S2x4x256_S1x4x256_1_0_0)))
              (k0_pay13 (View.ld x0 (Rect.unit ![0, 0, 0, 0] S1x1x512x256.size inb_S1x2x512x481_S1x1x512x256_0_0_0_0))
                (View.ld x0 (Rect.unit ![0, 1, 0, 0] S1x1x512x256.size inb_S1x2x512x481_S1x1x512x256_0_1_0_0))
                (View.ld h (Rect.unit ![0, 0, 0] S1x4x256.size inb_S2x4x256_S1x4x256_0_0_0))
                (View.ld h (Rect.unit ![1, 0, 0] S1x4x256.size inb_S2x4x256_S1x4x256_1_0_0))
                (View.ld x1 (Rect.unit ![0, 0, 0, 0] S1x1x512x256.size inb_S1x10x512x256_S1x1x512x256_0_0_0_0))
                (View.ld x1 (Rect.unit ![0, 5, 0, 0] S1x1x512x256.size inb_S1x10x512x256_S1x1x512x256_0_5_0_0)))
              (k0_pay15 (View.ld x0 (Rect.unit ![0, 0, 0, 0] S1x1x512x256.size inb_S1x2x512x481_S1x1x512x256_0_0_0_0))
                (View.ld h (Rect.unit ![0, 0, 0] S1x4x256.size inb_S2x4x256_S1x4x256_0_0_0)))
              (k0_pay16 (View.ld x0 (Rect.unit ![0, 1, 0, 0] S1x1x512x256.size inb_S1x2x512x481_S1x1x512x256_0_1_0_0))
                (View.ld h (Rect.unit ![1, 0, 0] S1x4x256.size inb_S2x4x256_S1x4x256_1_0_0)))
              (View.ld x1 (Rect.unit ![0, 1, 0, 0] S1x1x512x256.size inb_S1x10x512x256_S1x1x512x256_0_1_0_0))
              (View.ld x1 (Rect.unit ![0, 6, 0, 0] S1x1x512x256.size inb_S1x10x512x256_S1x1x512x256_0_6_0_0))
              (View.ld x1 (Rect.unit ![0, 2, 0, 0] S1x1x512x256.size inb_S1x10x512x256_S1x1x512x256_0_2_0_0))
              (View.ld x1 (Rect.unit ![0, 7, 0, 0] S1x1x512x256.size inb_S1x10x512x256_S1x1x512x256_0_7_0_0))
              (View.ld x1 (Rect.unit ![0, 3, 0, 0] S1x1x512x256.size inb_S1x10x512x256_S1x1x512x256_0_3_0_0))
              (View.ld x1 (Rect.unit ![0, 8, 0, 0] S1x1x512x256.size inb_S1x10x512x256_S1x1x512x256_0_8_0_0)))
            (View.ld x1 (Rect.unit ![0, 4, 0, 0] ![1, 1, 512, 256] inb_S1x10x512x256_S1x1x512x256_0_4_0_0))
            (View.ld x1 (Rect.unit ![0, 9, 0, 0] ![1, 1, 512, 256] inb_S1x10x512x256_S1x1x512x256_0_9_0_0))⟩]) :
    ∀ p ∈ L, ∀ x : p.1.shape.Idx, p.2 x = Cert.Filter.blockOut x0 x1 h (p.1.emb x) := by
  subst hL
  intro pc hpc x
  rcases List.mem_cons.mp hpc with rfl | hpc
  · -- channel 1, the last 225 bins: the input tile there
    obtain ⟨u, u', r, g, rfl⟩ : ∃ (u u' : Fin 1) (r : Fin 512) (g : Fin 225), x = ix4 u u' r g := ⟨x 0, x 1, x 2, x 3, eq_ix4 x⟩
    dsimp only
    rw [pay1_eq, ld_pass x0 1 (by omega)]
    have e : (Rect.unit (s := S1x2x512x481) ![0, 1, 0, 256] ![1, 1, 512, 225] inb_S1x2x512x481_S1x1x512x225_0_1_0_256).emb (ix4 u u' r g)
        = ix4 (0 : Fin 1) (⟨1, by omega⟩ : Fin 2) r (⟨256 + g.val, by have := g.isLt; omega⟩ : Fin 481) :=
      funext fun a => Fin.ext (match a with
        | ⟨0, _⟩ => by show 0 + 1 * u.val = 0; omega
        | ⟨1, _⟩ => by show 1 + 1 * u'.val = 1; omega
        | ⟨2, _⟩ => by show 0 + 1 * r.val = r.val; omega
        | ⟨3, _⟩ => by show 256 + 1 * g.val = 256 + g.val; omega)
    rw [e, Cert.Filter.blockOut_apply]
    unfold Cert.Filter.blockOutAt
    rw [dif_neg (by dsimp only; omega)]
  rcases List.mem_cons.mp hpc with rfl | hpc
  · -- channel 1, the first 256 bins: the imaginary part
    obtain ⟨u, u', r, f, rfl⟩ : ∃ (u u' : Fin 1) (r : Fin 512) (f : Fin 256), x = ix4 u u' r f := ⟨x 0, x 1, x 2, x 3, eq_ix4 x⟩
    show k0_pay35 _ _ _ _ _ _ _ _ _ (ix4 u u' r f) = _
    rw [imag_apply]
    have e : (Rect.unit (s := S1x2x512x481) ![0, 1, 0, 0] ![1, 1, 512, 256] inb_S1x2x512x481_S1x1x512x256_0_1_0_0).emb (ix4 u u' r f)
        = ix4 (0 : Fin 1) (⟨1, by omega⟩ : Fin 2) r (⟨f.val, by have := f.isLt; omega⟩ : Fin 481) :=
      funext fun a => Fin.ext (match a with
        | ⟨0, _⟩ => by show 0 + 1 * u.val = 0; omega
        | ⟨1, _⟩ => by show 1 + 1 * u'.val = 1; omega
        | ⟨2, _⟩ => by show 0 + 1 * r.val = r.val; omega
        | ⟨3, _⟩ => by show 0 + 1 * f.val = f.val; omega)
    rw [e, Cert.Filter.blockOut_apply]
    unfold Cert.Filter.blockOutAt
    rw [dif_pos (show f.val < 256 from f.isLt), if_neg (by dsimp only; omega)]
    unfold Cert.Filter.blockIm Cert.Filter.stackedAt Cert.Filter.stacked Cert.Filter.tileRe Cert.Filter.tileIm
    simp only [pay7_apply, pay8_apply, ld_spec x0 0 (by omega), ld_spec x0 1 (by omega), ld_hist h 0 (by omega), ld_hist h 1 (by omega),
      ld_coef x1 0 (by omega), ld_coef x1 1 (by omega), ld_coef x1 2 (by omega), ld_coef x1 3 (by omega), ld_coef x1 4 (by omega),
      ld_coef x1 5 (by omega), ld_coef x1 6 (by omega), ld_coef x1 7 (by omega), ld_coef x1 8 (by omega), ld_coef x1 9 (by omega)]
    rfl
  rcases List.mem_cons.mp hpc with rfl | hpc
  · -- channel 0, the last 225 bins: the input tile there
    obtain ⟨u, u', r, g, rfl⟩ : ∃ (u u' : Fin 1) (r : Fin 512) (g : Fin 225), x = ix4 u u' r g := ⟨x 0, x 1, x 2, x 3, eq_ix4 x⟩
    dsimp only
    rw [pay34_eq, ld_pass x0 0 (by omega)]
    have e : (Rect.unit (s := S1x2x512x481) ![0, 0, 0, 256] ![1, 1, 512, 225] inb_S1x2x512x481_S1x1x512x225_0_0_0_256).emb (ix4 u u' r g)
        = ix4 (0 : Fin 1) (⟨0, by omega⟩ : Fin 2) r (⟨256 + g.val, by have := g.isLt; omega⟩ : Fin 481) :=
      funext fun a => Fin.ext (match a with
        | ⟨0, _⟩ => by show 0 + 1 * u.val = 0; omega
        | ⟨1, _⟩ => by show 0 + 1 * u'.val = 0; omega
        | ⟨2, _⟩ => by show 0 + 1 * r.val = r.val; omega
        | ⟨3, _⟩ => by show 256 + 1 * g.val = 256 + g.val; omega)
    rw [e, Cert.Filter.blockOut_apply]
    unfold Cert.Filter.blockOutAt
    rw [dif_neg (by dsimp only; omega)]
  rcases List.mem_cons.mp hpc with rfl | hpc
  · -- channel 0, the first 256 bins: the real part
    obtain ⟨u, u', r, f, rfl⟩ : ∃ (u u' : Fin 1) (r : Fin 512) (f : Fin 256), x = ix4 u u' r f := ⟨x 0, x 1, x 2, x 3, eq_ix4 x⟩
    show k0_pay33 _ _ _ _ _ (ix4 u u' r f) = _
    rw [real_apply]
    have e : (Rect.unit (s := S1x2x512x481) ![0, 0, 0, 0] ![1, 1, 512, 256] inb_S1x2x512x481_S1x1x512x256_0_0_0_0).emb (ix4 u u' r f)
        = ix4 (0 : Fin 1) (⟨0, by omega⟩ : Fin 2) r (⟨f.val, by have := f.isLt; omega⟩ : Fin 481) :=
      funext fun a => Fin.ext (match a with
        | ⟨0, _⟩ => by show 0 + 1 * u.val = 0; omega
        | ⟨1, _⟩ => by show 0 + 1 * u'.val = 0; omega
        | ⟨2, _⟩ => by show 0 + 1 * r.val = r.val; omega
        | ⟨3, _⟩ => by show 0 + 1 * f.val = f.val; omega)
    rw [e, Cert.Filter.blockOut_apply]
    unfold Cert.Filter.blockOutAt
    rw [dif_pos (show f.val < 256 from f.isLt), if_pos (by dsimp only)]
    unfold Cert.Filter.blockRe Cert.Filter.stackedAt Cert.Filter.stacked Cert.Filter.tileRe Cert.Filter.tileIm
    simp only [pay7_apply, pay8_apply, ld_spec x0 0 (by omega), ld_spec x0 1 (by omega), ld_hist h 0 (by omega), ld_hist h 1 (by omega),
      ld_coef x1 0 (by omega), ld_coef x1 1 (by omega), ld_coef x1 2 (by omega), ld_coef x1 3 (by omega), ld_coef x1 4 (by omega),
      ld_coef x1 5 (by omega), ld_coef x1 6 (by omega), ld_coef x1 7 (by omega), ld_coef x1 8 (by omega), ld_coef x1 9 (by omega)]
    rfl
  nomatch hpc

/-- At any tile after a batch's first the body leaves the tile's result over the history rows `xs0` it found. -/
theorem out_B (c : Dev nD) (i : grid0.Coords) (arg2 : Memref sig .tc .vmem S1x2x512x481 .f32) (harg2 : arg2.IsWhole) (arg3 : Memref sig .tc .vmem S1x10x512x256 .f32) (harg3 : arg3.IsWhole) (arg4 : Memref sig .tc .vmem S1x2x512x481 .f32) (harg4 : arg4.IsWhole) (arg5 : Memref sig .tc .vmem S2x4x256 .f32) (harg5 : arg5.IsWhole) (hc0 : ¬cond0_0 i)
    (x0 : Vec Ideal S1x2x512x481 .f32) (x1 : Vec Ideal S1x10x512x256 .f32) (xs0 : Vec Ideal S2x4x256 .f32) :
    out0_B_2 (F := Ideal) c i arg2 harg2 arg3 harg3 arg4 harg4 arg5 harg5 hc0 x0 x1 xs0 = Cert.Filter.blockOut x0 x1 xs0 := by
  unfold out0_B_2
  rw [View.read_writes_eq_canon _ _ _ (cover0_B_2 c i arg2 harg2 arg3 harg3 arg4 harg4 arg5 harg5 hc0 x0 x1 xs0)]
  funext y
  refine View.canon_apply_of_pieces (Cert.Filter.blockOut x0 x1 xs0) _ (pieces_out x0 x1 xs0 _ ?_) y (cover0_B_2 c i arg2 harg2 arg3 harg3 arg4 harg4 arg5 harg5 hc0 x0 x1 xs0 y)
  unfold kernelRun0_B
  dsimp only
  sl_unfold_words
  simp only [View.readAt_eq_ld, harg2.read_unread, harg3.read_unread, harg5.read_unread]

/-- At a batch's first tile the body leaves the tile's result over ZERO history rows (it has just stored them). -/
theorem out_A (c : Dev nD) (i : grid0.Coords) (arg2 : Memref sig .tc .vmem S1x2x512x481 .f32) (harg2 : arg2.IsWhole) (arg3 : Memref sig .tc .vmem S1x10x512x256 .f32) (harg3 : arg3.IsWhole) (arg4 : Memref sig .tc .vmem S1x2x512x481 .f32) (harg4 : arg4.IsWhole) (arg5 : Memref sig .tc .vmem S2x4x256 .f32) (harg5 : arg5.IsWhole) (hc0 : cond0_0 i)
    (x0 : Vec Ideal S1x2x512x481 .f32) (x1 : Vec Ideal S1x10x512x256 .f32) :
    out0_A_2 (F := Ideal) c i arg2 harg2 arg3 harg3 arg4 harg4 arg5 harg5 hc0 x0 x1 = Cert.Filter.blockOut x0 x1 Cert.Filter.zeroRows := by
  unfold out0_A_2
  rw [View.read_writes_eq_canon _ _ _ (cover0_A_2 c i arg2 harg2 arg3 harg3 arg4 harg4 arg5 harg5 hc0 x0 x1)]
  funext y
  refine View.canon_apply_of_pieces (Cert.Filter.blockOut x0 x1 Cert.Filter.zeroRows) _ (pieces_out x0 x1 Cert.Filter.zeroRows _ ?_) y (cover0_A_2 c i arg2 harg2 arg3 harg3 arg4 harg4 arg5 harg5 hc0 x0 x1 y)
  unfold kernelRun0_A
  dsimp only
  sl_unfold_words
  simp only [View.readAt_eq_ld, harg2.read_unread, harg3.read_unread]
  rw [zero_fill arg5.view inb_S2x4x256_S2x4x256_0_0_0 0 inb_S2x4x256_S1x4x256_0_0_0,
    zero_fill arg5.view inb_S2x4x256_S2x4x256_0_0_0 1 inb_S2x4x256_S1x4x256_1_0_0]

/-- THE HISTORY ROWS a run leaves: the last store of each channel's four rows decides, whatever was stored before
    (`rest`: nothing, or the zero fill of a batch's first tile). -/
theorem canon_hist (x0 : Vec Ideal S1x2x512x481 .f32) (rest : List (View.Piece (Elt Ideal) S2x4x256 .f32)) (j : S2x4x256.Idx) :
    View.canon
      ((⟨Rect.unit ![1, 0, 0] ![1, 4, 256] inb_S2x4x256_S1x4x256_1_0_0,
          k0_pay3 (k0_pay6 (View.ld x0 (Rect.unit ![0, 1, 0, 0] S1x1x512x256.size inb_S1x2x512x481_S1x1x512x256_0_1_0_0)))⟩ : View.Piece (Elt Ideal) S2x4x256 .f32)
        :: ⟨Rect.unit ![0, 0, 0] ![1, 4, 256] inb_S2x4x256_S1x4x256_0_0_0,
          k0_pay2 (k0_pay5 (View.ld x0 (Rect.unit ![0, 0, 0, 0] S1x1x512x256.size inb_S1x2x512x481_S1x1x512x256_0_0_0_0)))⟩
        :: rest) j
      = Cert.Filter.lastRows x0 j := by
  obtain ⟨c, s, f, rfl⟩ : ∃ (c : Fin 2) (s : Fin 4) (f : Fin 256), j = ix3 c s f := ⟨j 0, j 1, j 2, eq_ix3 j⟩
  rw [Cert.Filter.lastRows_apply]
  by_cases hc : c.val = 0
  · obtain rfl : c = 0 := Fin.ext hc
    rw [View.canon_cons_of_not_mem _ _ (by
      rw [Rect.mem_set_unit]
      intro hm
      have := (hm ⟨0, by decide⟩).1
      exact absurd this (by show ¬(1 ≤ 0); omega))]
    have e : (ix3 (0 : Fin 2) s f : S2x4x256.Idx)
        = (Rect.unit (s := S2x4x256) ![0, 0, 0] ![1, 4, 256] inb_S2x4x256_S1x4x256_0_0_0).emb (ix3 (0 : Fin 1) s f) :=
      funext fun a => Fin.ext (match a with
        | ⟨0, _⟩ => by show 0 = 0 + 1 * 0; omega
        | ⟨1, _⟩ => by show s.val = 0 + 1 * s.val; omega
        | ⟨2, _⟩ => by show f.val = 0 + 1 * f.val; omega)
    rw [e, View.canon_cons_emb, pay2_apply, ld_spec x0 0 (by omega)]
    rfl
  · obtain rfl : c = 1 := Fin.ext (by have := c.isLt; show c.val = 1; omega)
    have e : (ix3 (1 : Fin 2) s f : S2x4x256.Idx)
        = (Rect.unit (s := S2x4x256) ![1, 0, 0] ![1, 4, 256] inb_S2x4x256_S1x4x256_1_0_0).emb (ix3 (0 : Fin 1) s f) :=
      funext fun a => Fin.ext (match a with
        | ⟨0, _⟩ => by show 1 = 1 + 1 * 0; omega
        | ⟨1, _⟩ => by show s.val = 0 + 1 * s.val; omega
        | ⟨2, _⟩ => by show f.val = 0 + 1 * f.val; omega)
    rw [e, View.canon_cons_emb, pay3_apply, ld_spec x0 1 (by omega)]
    rfl

/-- At any tile after a batch's first the body leaves the tile's last four rows as history, whatever rows it found. -/
theorem hist_B (c : Dev nD) (i : grid0.Coords) (arg2 : Memref sig .tc .vmem S1x2x512x481 .f32) (harg2 : arg2.IsWhole) (arg3 : Memref sig .tc .vmem S1x10x512x256 .f32) (harg3 : arg3.IsWhole) (arg4 : Memref sig .tc .vmem S1x2x512x481 .f32) (harg4 : arg4.IsWhole) (arg5 : Memref sig .tc .vmem S2x4x256 .f32) (harg5 : arg5.IsWhole) (hc0 : ¬cond0_0 i)
    (x0 : Vec Ideal S1x2x512x481 .f32) (x1 : Vec Ideal S1x10x512x256 .f32) (xs0 : Vec Ideal S2x4x256 .f32) :
    sout0_B_0 (F := Ideal) c i arg2 harg2 arg3 harg3 arg4 harg4 arg5 harg5 hc0 x0 x1 xs0 = Cert.Filter.lastRows x0 := by
  unfold sout0_B_0
  rw [View.read_writes_eq_canon _ _ _ (scover0_B_0 c i arg2 harg2 arg3 harg3 arg4 harg4 arg5 harg5 hc0 x0 x1 xs0)]
  unfold kernelRun0_B
  dsimp only
  sl_unfold_words
  simp only [View.readAt_eq_ld, harg2.read_unread]
  funext j
  exact canon_hist x0 [] j

/-- At a batch's first tile too: the zero fill is overwritten. -/
theorem hist_A (c : Dev nD) (i : grid0.Coords) (arg2 : Memref sig .tc .vmem S1x2x512x481 .f32) (harg2 : arg2.IsWhole) (arg3 : Memref sig .tc .vmem S1x10x512x256 .f32) (harg3 : arg3.IsWhole) (arg4 : Memref sig .tc .vmem S1x2x512x481 .f32) (harg4 : arg4.IsWhole) (arg5 : Memref sig .tc .vmem S2x4x256 .f32) (harg5 : arg5.IsWhole) (hc0 : cond0_0 i)
    (x0 : Vec Ideal S1x2x512x481 .f32) (x1 : Vec Ideal S1x10x512x256 .f32) :
    sout0_A_0 (F := Ideal) c i arg2 harg2 arg3 harg3 arg4 harg4 arg5 harg5 hc0 x0 x1 = Cert.Filter.lastRows x0 := by
  unfold sout0_A_0
  rw [View.read_writes_eq_canon _ _ _ (scover0_A_0 c i arg2 harg2 arg3 harg3 arg4 harg4 arg5 harg5 hc0 x0 x1)]
  unfold kernelRun0_A
  dsimp only
  sl_unfold_words
  simp only [View.readAt_eq_ld, harg2.read_unread]
  funext j
  exact canon_hist x0 _ j

end Cert.KernelIdeal.Tile

end
-- ==== Proof.TileArray.lean ====
/-
  From the time tiles to the whole array.

  The grid has 64 points; point `t` works on batch `t / 8` and time tile `t % 8` (512 rows). At every point the body leaves
  in the carried history rows the last four rows of that point's input tile, so a point that is not the first of its
  batch finds there the four rows of the array just before its own tile, and the first point of a batch starts from
  zero rows. With the input tiles read as rows `512·(t % 8) ..` of batch `t / 8` of the two argument arrays, the tile-level
  lemma `Cert.Filter.blockOut_eq` says that what point `t` writes back is the whole-array result `Cert.Filter.filtered`
  read through the point's block. The 64 blocks cover the result array (index `(b, c, τ, f)` lies in the block of point
  `8·b + τ / 512`), so the array ends holding `Cert.Filter.filtered` of the arguments.
-/
import proofs.«139439_j40218073759990_1_alg».proof.Proof.Gen.KernelIdeal.Value
import proofs.«139439_j40218073759990_1_alg».proof.Proof.FilterSpec
import proofs.«139439_j40218073759990_1_alg».proof.Proof.TilePieces
import Idealize.ShloMosaic.Lib.Pipeline.Value
import Idealize.ShloMosaic.Lib.ValueIdx
import Idealize.ShloMosaic.Lib.Tactic

noncomputable section

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## Names of literal type for the tiles and the arrays -/

/-- The signal tile of point `t`. -/
abbrev xblk (c : Dev nD) (t : Fin cfg0.N) : Vec Ideal S1x2x512x481 .f32 := iblk m c 0 t
/-- The coefficient tile of point `t`. -/
abbrev wblk (c : Dev nD) (t : Fin cfg0.N) : Vec Ideal S1x10x512x256 .f32 := iblk m c 1 t
/-- The signal array. -/
abbrev xarr (c : Dev nD) : Vec Ideal S8x2x4096x481 .f32 := V m c main_arg0
/-- The coefficient array. -/
abbrev warr (c : Dev nD) : Vec Ideal S8x10x4096x256 .f32 := V m c main_arg1

theorem xarr_eq (c : Dev nD) : xarr m c = m ((c : Thread nD τ).loc main_arg0) := V_main_arg0 m c
theorem warr_eq (c : Dev nD) : warr m c = m ((c : Thread nD τ).loc main_arg1) := V_main_arg1 m c

/-- A grid point is below 64. -/
theorem point_lt (t : Fin cfg0.N) : t.val < 64 := lt_of_lt_of_eq t.isLt (show cfg0.N = 64 from N_0)

/-- The batch of point `t`. -/
abbrev batchOf (t : Fin cfg0.N) : Fin 8 := ⟨t.val / 8, by have := point_lt t; omega⟩
/-- The time tile of point `t`. -/
abbrev tileOf (t : Fin cfg0.N) : Fin 8 := ⟨t.val % 8, Nat.mod_lt _ (by decide)⟩
/-- Row `r` of point `t`'s time tile, as a row of the array. -/
abbrev rowOf (t : Fin cfg0.N) (r : Fin 512) : Fin 4096 := ⟨512 * (t.val % 8) + r.val, by have := r.isLt; omega⟩
/-- The point before `t` (used where `t` is not a batch's first). -/
abbrev prev (t : Fin cfg0.N) : Fin cfg0.N := ⟨t.val - 1, Nat.lt_of_le_of_lt (Nat.sub_le _ _) t.isLt⟩

/-! ## The history rows after any point: the last four rows of its signal tile -/

/-- The body overwrites the history rows whole at every point, with the last four rows of the signal tile. -/
theorem hist_eq (c : Dev nD) (t : Fin cfg0.N) :
    (outsAt0 m c t.val t.isLt).2 = Cert.Filter.lastRows (xblk m c t) := by
  by_cases h0 : t.val % 8 = 0
  · rw [outsAt0_A m c t h0]
    dsimp only
    exact Cert.KernelIdeal.Tile.hist_A c (grid0.coords t) (ms0_0 t) (hs0_0 t) (ms0_1 t) (hs0_1 t) (ms0_2 t) (hs0_2 t)
      scM0_0 (Memref.isWhole_whole cc0_scratch0) ((hcond0_0 t).mpr h0) (iblk m c 0 t) (iblk m c 1 t)
  · rw [outsAt0_B m c t h0]
    dsimp only
    exact Cert.KernelIdeal.Tile.hist_B c (grid0.coords t) (ms0_0 t) (hs0_0 t) (ms0_1 t) (hs0_1 t) (ms0_2 t) (hs0_2 t)
      scM0_0 (Memref.isWhole_whole cc0_scratch0) (fun h => h0 ((hcond0_0 t).mp h)) (iblk m c 0 t) (iblk m c 1 t)
      (outsAt0 m c (t.val - 1) (Nat.lt_of_le_of_lt (Nat.sub_le _ _) t.isLt)).2

/-! ## The output tile after any point -/

/-- At a batch's first point the output tile is the tile result over zero history rows. -/
theorem tile_first (c : Dev nD) (t : Fin cfg0.N) (h0 : t.val % 8 = 0) :
    (outsAt0 m c t.val t.isLt).1 = Cert.Filter.blockOut (xblk m c t) (wblk m c t) Cert.Filter.zeroRows := by
  rw [outsAt0_A m c t h0]
  dsimp only
  exact Cert.KernelIdeal.Tile.out_A c (grid0.coords t) (ms0_0 t) (hs0_0 t) (ms0_1 t) (hs0_1 t) (ms0_2 t) (hs0_2 t)
    scM0_0 (Memref.isWhole_whole cc0_scratch0) ((hcond0_0 t).mpr h0) (iblk m c 0 t) (iblk m c 1 t)

/-- At any other point it is the tile result over the last four rows of the signal tile of the point before. -/
theorem tile_later (c : Dev nD) (t : Fin cfg0.N) (h0 : ¬t.val % 8 = 0) :
    (outsAt0 m c t.val t.isLt).1
      = Cert.Filter.blockOut (xblk m c t) (wblk m c t) (Cert.Filter.lastRows (xblk m c (prev t))) := by
  rw [outsAt0_B m c t h0]
  dsimp only
  exact (Cert.KernelIdeal.Tile.out_B c (grid0.coords t) (ms0_0 t) (hs0_0 t) (ms0_1 t) (hs0_1 t) (ms0_2 t) (hs0_2 t)
    scM0_0 (Memref.isWhole_whole cc0_scratch0) (fun h => h0 ((hcond0_0 t).mp h)) (iblk m c 0 t) (iblk m c 1 t)
    (outsAt0 m c (t.val - 1) (Nat.lt_of_le_of_lt (Nat.sub_le _ _) t.isLt)).2).trans
    (congrArg (Cert.Filter.blockOut (xblk m c t) (wblk m c t)) (hist_eq m c (prev t)))

/-! ## The tiles read the arrays -/

/-- The three windows' block indices at point `t`: batch `t / 8`, time tile `t % 8`, decided over the grid. -/
theorem idx_facts : ∀ t : Fin cfg0.N,
    (win0_0.index t (0 : Fin 4) = t.val / 8 ∧ win0_0.index t (1 : Fin 4) = 0
      ∧ win0_0.index t (2 : Fin 4) = t.val % 8 ∧ win0_0.index t (3 : Fin 4) = 0)
    ∧ (win0_1.index t (0 : Fin 4) = t.val / 8 ∧ win0_1.index t (1 : Fin 4) = 0
      ∧ win0_1.index t (2 : Fin 4) = t.val % 8 ∧ win0_1.index t (3 : Fin 4) = 0)
    ∧ (win0_2.index t (0 : Fin 4) = t.val / 8 ∧ win0_2.index t (1 : Fin 4) = 0
      ∧ win0_2.index t (2 : Fin 4) = t.val % 8 ∧ win0_2.index t (3 : Fin 4) = 0) :=
  (by decide +kernel : ∀ t : Fin grid0.N, _)

/-- The signal tile of point `t` at `y` is the signal array at batch `t / 8`, row `512·(t % 8) + y₂`. -/
theorem xblk_at (c : Dev nD) (t : Fin cfg0.N) (y : S1x2x512x481.Idx) (k : S8x2x4096x481.Idx)
    (h0 : (k 0).val = t.val / 8) (h1 : (k 1).val = (y 1).val)
    (h2 : (k 2).val = 512 * (t.val % 8) + (y 2).val) (h3 : (k 3).val = (y 3).val) :
    xblk m c t y = xarr m c k := by
  obtain ⟨⟨e0, e1, e2, e3⟩, -, -⟩ := idx_facts t
  have hy0 : (y 0).val < 1 := (y 0).isLt
  unfold xblk iblk
  rw [View.read_apply]
  refine congrArg (xarr m c) (funext fun a => Fin.ext ?_)
  match a with
  | ⟨0, _⟩ => show win0_0.index t (0 : Fin 4) * 1 + 1 * (y 0).val = (k 0).val; omega
  | ⟨1, _⟩ => show win0_0.index t (1 : Fin 4) * 2 + 1 * (y 1).val = (k 1).val; omega
  | ⟨2, _⟩ => show win0_0.index t (2 : Fin 4) * 512 + 1 * (y 2).val = (k 2).val; omega
  | ⟨3, _⟩ => show win0_0.index t (3 : Fin 4) * 481 + 1 * (y 3).val = (k 3).val; omega

/-- The coefficient tile of point `t` at `y` is the coefficient array at batch `t / 8`, row `512·(t % 8) + y₂`. -/
theorem wblk_at (c : Dev nD) (t : Fin cfg0.N) (y : S1x10x512x256.Idx) (k : S8x10x4096x256.Idx)
    (h0 : (k 0).val = t.val / 8) (h1 : (k 1).val = (y 1).val)
    (h2 : (k 2).val = 512 * (t.val % 8) + (y 2).val) (h3 : (k 3).val = (y 3).val) :
    wblk m c t y = warr m c k := by
  obtain ⟨-, ⟨e0, e1, e2, e3⟩, -⟩ := idx_facts t
  have hy0 : (y 0).val < 1 := (y 0).isLt
  unfold wblk iblk
  rw [View.read_apply]
  refine congrArg (warr m c) (funext fun a => Fin.ext ?_)
  match a with
  | ⟨0, _⟩ => show win0_1.index t (0 : Fin 4) * 1 + 1 * (y 0).val = (k 0).val; omega
  | ⟨1, _⟩ => show win0_1.index t (1 : Fin 4) * 10 + 1 * (y 1).val = (k 1).val; omega
  | ⟨2, _⟩ => show win0_1.index t (2 : Fin 4) * 512 + 1 * (y 2).val = (k 2).val; omega
  | ⟨3, _⟩ => show win0_1.index t (3 : Fin 4) * 256 + 1 * (y 3).val = (k 3).val; omega

/-! ## The output tile after a point is the whole-array result on the point's rows -/

/-- The output tile after point `t` at `y` is the filtered array at batch `t / 8`, row `512·(t % 8) + y₂`: the tile's
    blocks are the arrays' rows, and its history rows are zero at a batch's first tile and otherwise the last four rows
    of the tile before, which are the array's four rows before this tile. -/
theorem tile_at (c : Dev nD) (t : Fin cfg0.N) (y : S1x2x512x481.Idx) (k : S8x2x4096x481.Idx)
    (h0 : (k 0).val = t.val / 8) (h1 : (k 1).val = (y 1).val)
    (h2 : (k 2).val = 512 * (t.val % 8) + (y 2).val) (h3 : (k 3).val = (y 3).val) :
    (outsAt0 m c t.val t.isLt).1 y = Cert.Filter.filtered (xarr m c) (warr m c) k := by
  obtain ⟨u, c', r, f, rfl⟩ : ∃ u c' r f, y = ix4 u c' r f := ⟨_, _, _, _, eq_ix4 y⟩
  obtain rfl : u = 0 := Subsingleton.elim _ _
  obtain rfl : k = ix4 (batchOf t) c' (rowOf t r) f :=
    funext fun a => Fin.ext (match a with | ⟨0, _⟩ => h0 | ⟨1, _⟩ => h1 | ⟨2, _⟩ => h2 | ⟨3, _⟩ => h3)
  have hx0 : ∀ (c'' : Fin 2) (r' : Fin 512) (f' : Fin 481),
      xblk m c t (ix4 0 c'' r' f') = xarr m c (ix4 (batchOf t) c'' (rowOf t r') f') :=
    fun c'' r' f' => xblk_at m c t _ _ rfl rfl rfl rfl
  have hx1 : ∀ (j : Fin 10) (r' : Fin 512) (f' : Fin 256),
      wblk m c t (ix4 0 j r' f') = warr m c (ix4 (batchOf t) j (rowOf t r') f') :=
    fun j r' f' => wblk_at m c t _ _ rfl rfl rfl rfl
  by_cases hA : t.val % 8 = 0
  · rw [tile_first m c t hA]
    exact Cert.Filter.blockOut_eq (xarr m c) (warr m c) (batchOf t) (tileOf t) (xblk m c t) (wblk m c t)
      Cert.Filter.zeroRows hx0 hx1
      (fun _ _ _ => by rw [dif_pos (show (tileOf t).val = 0 from hA)]; rfl) c' r f
  · rw [tile_later m c t hA]
    exact Cert.Filter.blockOut_eq (xarr m c) (warr m c) (batchOf t) (tileOf t) (xblk m c t) (wblk m c t)
      (Cert.Filter.lastRows (xblk m c (prev t))) hx0 hx1
      (fun cc s g => by
        rw [dif_neg (show ¬(tileOf t).val = 0 from hA)]
        refine (Cert.Filter.lastRows_apply (xblk m c (prev t)) cc s g).trans ?_
        exact xblk_at m c (prev t) _ _
          (by show t.val / 8 = (t.val - 1) / 8; omega) rfl
          (by show 512 * (t.val % 8) + s.val - 4 = 512 * ((t.val - 1) % 8) + (508 + s.val); omega) rfl)
      c' r f

/-! ## What a point writes back -/

/-- What point `t` writes back is the filtered array read through the point's block. -/
theorem flushed_eq (c : Dev nD) (t : Fin cfg0.N) :
    (dats m 0 c).flushed 2 t
      = ((cfg0.win 2).blk t).view.read (Elt Ideal) (Cert.Filter.filtered (xarr m c) (warr m c)) := by
  rw [Cert.KernelIdeal.Value.flushed2 m c t]
  obtain ⟨-, -, ⟨e0, e1, e2, e3⟩⟩ := idx_facts t
  funext y
  have hy0 : (y 0).val < 1 := (y 0).isLt
  show (outsAt0 m c t.val t.isLt).1 ((cfg0.win 2).xinj (grid0.coords t) y)
    = Cert.Filter.filtered (xarr m c) (warr m c) (((cfg0.win 2).blk t).view.emb y)
  refine tile_at m c t _ _ ?_ ?_ ?_ ?_
  · show win0_2.index t (0 : Fin 4) * 1 + 1 * (y 0).val = t.val / 8; omega
  · show win0_2.index t (1 : Fin 4) * 2 + 1 * (y 1).val = (y 1).val; omega
  · show win0_2.index t (2 : Fin 4) * 512 + 1 * (y 2).val = 512 * (t.val % 8) + (y 2).val; omega
  · show win0_2.index t (3 : Fin 4) * 481 + 1 * (y 3).val = (y 3).val; omega

/-! ## The blocks cover the array -/

/-- An index of the result array is in point `t`'s block iff each coordinate is in the block's range on its axis. -/
theorem mem_blk (t : Fin cfg0.N) (i : S8x2x4096x481.Idx) :
    i ∈ ((cfg0.win 2).blk t).view.set ↔ ∀ a : Fin 4, win0_2.index t a * S1x2x512x481.size a ≤ (i a).val
      ∧ (i a).val < win0_2.index t a * S1x2x512x481.size a + S1x2x512x481.size a := by
  show i ∈ ((View.whole main_v0).slice (win0_2.rect t)).set ↔ _
  rw [View.set_slice_whole, Rect.mem_set_unit]
  exact Iff.rfl

/-- Index `(b, c, τ, f)` lies in the block of point `8·b + τ / 512`. -/
theorem cover (i : S8x2x4096x481.Idx) :
    ∃ t : Fin cfg0.N, (cfg0.win 2).flush t = true ∧ i ∈ ((cfg0.win 2).blk t).view.set := by
  have hb : (i 0).val < 8 := (i 0).isLt
  have hc : (i 1).val < 2 := (i 1).isLt
  have hr : (i 2).val < 4096 := (i 2).isLt
  have hf : (i 3).val < 481 := (i 3).isLt
  obtain ⟨t, ht⟩ : ∃ t : Fin cfg0.N, t.val = 8 * (i 0).val + (i 2).val / 512 :=
    ⟨⟨8 * (i 0).val + (i 2).val / 512,
      lt_of_lt_of_eq (show 8 * (i 0).val + (i 2).val / 512 < 64 by omega) (show cfg0.N = 64 from N_0).symm⟩, rfl⟩
  obtain ⟨-, -, ⟨e0, e1, e2, e3⟩⟩ := idx_facts t
  refine ⟨t, flush0_2 t, ?_⟩
  rw [mem_blk]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 2 ≤ (i 1).val ∧ (i 1).val < win0_2.index t (1 : Fin 4) * 2 + 2
    omega
  | ⟨2, _⟩ =>
    show win0_2.index t (2 : Fin 4) * 512 ≤ (i 2).val ∧ (i 2).val < win0_2.index t (2 : Fin 4) * 512 + 512
    omega
  | ⟨3, _⟩ =>
    show win0_2.index t (3 : Fin 4) * 481 ≤ (i 3).val ∧ (i 3).val < win0_2.index t (3 : Fin 4) * 481 + 481
    omega

/-! ## The array after the run -/

/-- The result array ends holding the filtered array of the two arguments. -/
theorem final (c : Dev nD) :
    (dats m 0 c).arrAt 2 cfg0.N
      = Cert.Filter.filtered (m ((c : Thread nD τ).loc main_arg0)) (m ((c : Thread nD τ).loc main_arg1)) :=
  (dats m 0 c).arrAt_eq_of_cover 2 (Cert.Filter.filtered (xarr m c) (warr m c)) (fun t _ => flushed_eq m c t) cover

/-- The run: the result array at the filtered array of the arguments as launched, the arguments unchanged. -/
theorem run : θ_run (defs (F := Ideal)) (onTc (τ := τ) (main (F := Ideal))) ⟨m, fun _ => 0, ρ⟩ fun r => ∀ c : Dev nD,
      r.2.mem ((c : Thread nD τ).loc main_v0)
          = Cert.Filter.filtered (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Arr

end
-- ==== Proof.lean ====
/-
  The certificate of the causal five-tap complex filter kernel against its jnp reference.

  Both idealized programs end with the result array at ONE function of the two argument arrays,
  `Cert.Filter.filtered` (FilterSpec.lean): on the first 256 frequency bins the complex product-sum over the five
  taps of the signal delayed by 4 - k rows (zero before time 0), on the other 225 bins the signal itself.
  The kernel reaches it tile by tile: each grid point computes one 512-row time tile from its two input tiles and the
  four rows the previous tile left behind (zero at a batch's first tile), accumulating tap by tap (TileLayout.lean,
  TilePieces.lean), and the tiles cover the array (TileArray.lean). The reference reaches it through a padded copy,
  five shifted slices stacked on a new axis and a sum over that axis (RefFiltered.lean). A sum of five terms
  accumulated one by one from zero is the sum from zero of the five terms, on the extended reals too (TapSum.lean):
  no finiteness is used. The frames are the generated ones; the idealization rewrote nothing.
-/
import proofs.«139439_j40218073759990_1_alg».proof.Defs
import proofs.«139439_j40218073759990_1_alg».proof.Proof.Gen.Kernel
import proofs.«139439_j40218073759990_1_alg».proof.Proof.Gen.Kernel.Skeleton
import proofs.«139439_j40218073759990_1_alg».proof.Proof.Gen.Kernel.Launch
import proofs.«139439_j40218073759990_1_alg».proof.Proof.Gen.Kernel.Points
import proofs.«139439_j40218073759990_1_alg».proof.Proof.Gen.Kernel.Frame
import proofs.«139439_j40218073759990_1_alg».proof.Proof.Gen.KernelIdeal
import proofs.«139439_j40218073759990_1_alg».proof.Proof.Gen.KernelIdeal.Skeleton
import proofs.«139439_j40218073759990_1_alg».proof.Proof.Gen.KernelIdeal.Launch
import proofs.«139439_j40218073759990_1_alg».proof.Proof.Gen.KernelIdeal.Points
import proofs.«139439_j40218073759990_1_alg».proof.Proof.Gen.KernelIdeal.Frame
import proofs.«139439_j40218073759990_1_alg».proof.Proof.Gen.ReferenceIdeal
import proofs.«139439_j40218073759990_1_alg».proof.Proof.Gen.Pre_finite_inputs
import proofs.«139439_j40218073759990_1_alg».proof.Proof.Gen.KernelIdeal.Value
import proofs.«139439_j40218073759990_1_alg».proof.Proof.RefRun
import proofs.«139439_j40218073759990_1_alg».proof.Proof.RefRead
import proofs.«139439_j40218073759990_1_alg».proof.Proof.RefFiltered
import proofs.«139439_j40218073759990_1_alg».proof.Proof.TileArray
import Idealize.ShloMosaic.Adequacy
import Idealize.ShloMosaic.Init

noncomputable section

namespace Cert.Proof

open Idealize.ShloMosaic Idealize.SL.Sem

/-- The word-level kernel runs and leaves its arguments alone: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories that agree on the two arguments both idealized programs end with the result array at
    `Cert.Filter.filtered` of them. -/
theorem algebraic : Cert.algebraic_KernelIdeal_ReferenceIdeal := by
  intro m ρ m' ρ' _ hagree
  refine ⟨fun c => Cert.Filter.filtered
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arr.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v35_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
